-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part5 {F : FTy → Type} [FloatOps F] (main_v82 : IVec S_ 1) (main_v84 : IVec S600000 32) (main_c_32 : IVec S_ 32) : IVec S_ 1 :=
  let main_v85 : IVec S600000 32 := broadcastInDim S600000 ![] bcast_S_S600000 main_c_32
  let main_v86 : IVec S600000 1 := cmpi .slt main_v84 main_v85
  let main_c_33 : IVec S_ 1 := constantI S_ 1 1#1
  let main_v87 : IVec S_ 1 := (fun x v => Host.reduce IntOp.andi x v reducesTo_S600000_S_d0 h_S_) main_v86 main_c_33
  let main_v88 : IVec S_ 1 := andi main_v82 main_v87
  main_v88

def fn_part4 {F : FTy → Type} [FloatOps F] (main_arg2 : IVec S2x600000 32) (main_arg3 : IVec S100000 32) (main_v63 : IVec S_ 1) (main_v67 : IVec S_ 1) : IVec S_ 1 :=
  let main_v68 : IVec S_ 1 := andi main_v63 main_v67
  let main_c_26 : IVec S_ 32 := constantI S_ 32 0#32
  let main_v69 : IVec S100000 32 := broadcastInDim S100000 ![] bcast_S_S100000 main_c_26
  let main_v70 : IVec S100000 1 := cmpi .sge main_arg3 main_v69
  let main_c_27 : IVec S_ 1 := constantI S_ 1 1#1
  let main_v71 : IVec S_ 1 := (fun x v => Host.reduce IntOp.andi x v reducesTo_S100000_S_d0 h_S_) main_v70 main_c_27
  let main_v72 : IVec S_ 1 := andi main_v68 main_v71
  let main_c_28 : IVec S_ 32 := constantI S_ 32 32#32
  let main_v73 : IVec S100000 32 := broadcastInDim S100000 ![] bcast_S_S100000 main_c_28
  let main_v74 : IVec S100000 1 := cmpi .slt main_arg3 main_v73
  let main_c_29 : IVec S_ 1 := constantI S_ 1 1#1
  let main_v75 : IVec S_ 1 := (fun x v => Host.reduce IntOp.andi x v reducesTo_S100000_S_d0 h_S_) main_v74 main_c_29
  let main_v76 : IVec S_ 1 := andi main_v72 main_v75
  let main_v77 : IVec S1x600000 32 := (extractStridedSlice S1x600000 ![0, 0] · slices_S2x600000_S1x600000_0_0) main_arg2
  let main_v78 : IVec S600000 32 := shapeCast S600000 main_v77 shapeCasts_S1x600000_S600000
  let main_c_30 : IVec S_ 32 := constantI S_ 32 0#32
  let main_v79 : IVec S600000 32 := broadcastInDim S600000 ![] bcast_S_S600000 main_c_30
  let main_v80 : IVec S600000 1 := cmpi .sge main_v78 main_v79
  let main_c_31 : IVec S_ 1 := constantI S_ 1 1#1
  let main_v81 : IVec S_ 1 := (fun x v => Host.reduce IntOp.andi x v reducesTo_S600000_S_d0 h_S_) main_v80 main_c_31
  let main_v82 : IVec S_ 1 := andi main_v76 main_v81
  let main_v83 : IVec S1x600000 32 := (extractStridedSlice S1x600000 ![0, 0] · slices_S2x600000_S1x600000_0_0) main_arg2
  let main_v84 : IVec S600000 32 := shapeCast S600000 main_v83 shapeCasts_S1x600000_S600000
  let main_c_32 : IVec S_ 32 := constantI S_ 32 100000#32
  fn_part5 (F := F) main_v82 main_v84 main_c_32

def fn_part3 {F : FTy → Type} [FloatOps F] (main_arg2 : IVec S2x600000 32) (main_arg3 : IVec S100000 32) (main_arg13 : FVec F S128 .f32) (main_arg14 : FVec F S128x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_v63 main_v67

def fn_part2 {F : FTy → Type} [FloatOps F] (main_arg2 : IVec S2x600000 32) (main_arg3 : IVec S100000 32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_v48 main_v49 main_v50

def fn_part1 {F : FTy → Type} [FloatOps F] (main_arg2 : IVec S2x600000 32) (main_arg3 : IVec S100000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_v33

def fn {F : FTy → Type} [FloatOps F] (main_arg0 : FVec F S100000x128 .f32) (main_arg1 : FVec F S600000x128 .f32) (main_arg2 : IVec S2x600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_v13 main_v16
-- ==== Kernel.lean ====
abbrev S100000x128 : Shape := ⟨2, ![100000, 128]⟩
abbrev S600000x128 : Shape := ⟨2, ![600000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S_ : Shape := ⟨0, ![]⟩
abbrev S20x1x5000 : Shape := ⟨3, ![20, 1, 5000]⟩
abbrev S20x32x128 : Shape := ⟨3, ![20, 32, 128]⟩
abbrev S1x1x5000 : Shape := ⟨3, ![1, 1, 5000]⟩
abbrev S5000x128 : Shape := ⟨2, ![5000, 128]⟩
abbrev S1x32x128 : Shape := ⟨3, ![1, 32, 128]⟩
abbrev S1x5000 : Shape := ⟨2, ![1, 5000]⟩
abbrev S32x5000 : Shape := ⟨2, ![32, 5000]⟩
abbrev S32x128 : Shape := ⟨2, ![32, 128]⟩
abbrev S32 : Shape := ⟨1, ![32]⟩
abbrev S100000x1 : Shape := ⟨2, ![100000, 1]⟩
abbrev S32x1 : Shape := ⟨2, ![32, 1]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S1 : Shape := ⟨1, ![1]⟩
abbrev S1x1 : Shape := ⟨2, ![1, 1]⟩
abbrev S60x1x10000 : Shape := ⟨3, ![60, 1, 10000]⟩
abbrev S1x1x10000 : Shape := ⟨3, ![1, 1, 10000]⟩
abbrev S10000x128 : Shape := ⟨2, ![10000, 128]⟩
abbrev S1x10000 : Shape := ⟨2, ![1, 10000]⟩
abbrev S32x10000 : Shape := ⟨2, ![32, 10000]⟩

abbrev nBuf : Space → Nat
  | .hbm => 128
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S2x600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S20x1x5000, .i32⟩
  | .hbm, ⟨25, _⟩ => ⟨S20x32x128, .f32⟩
  | .hbm, ⟨26, _⟩ => ⟨S_, .f32⟩
  | .hbm, ⟨27, _⟩ => ⟨S32x128, .f32⟩
  | .hbm, ⟨28, _⟩ => ⟨S_, .f32⟩
  | .hbm, ⟨29, _⟩ => ⟨S100000, .f32⟩
  | .hbm, ⟨30, _⟩ => ⟨S_, .f32⟩
  | .hbm, ⟨31, _⟩ => ⟨S32, .f32⟩
  | .hbm, ⟨32, _⟩ => ⟨S100000x1, .i32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32x1, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S1x128, .f32⟩
  | .hbm, ⟨42, _⟩ => ⟨S32x128, .f32⟩
  | .hbm, ⟨43, _⟩ => ⟨S32x128, .f32⟩
  | .hbm, ⟨44, _⟩ => ⟨S_, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S1x128, .f32⟩
  | .hbm, ⟨49, _⟩ => ⟨S32x128, .f32⟩
  | .hbm, ⟨50, _⟩ => ⟨S32x128, .f32⟩
  | .hbm, ⟨51, _⟩ => ⟨S_, .f32⟩
  | .hbm, ⟨52, _⟩ => ⟨S32x128, .f32⟩
  | .hbm, ⟨53, _⟩ => ⟨S32x128, .f32⟩
  | .hbm, ⟨54, _⟩ => ⟨S32x128, .f32⟩
  | .hbm, ⟨55, _⟩ => ⟨S1x128, .f32⟩
  | .hbm, ⟨56, _⟩ => ⟨S32x128, .f32⟩
  | .hbm, ⟨57, _⟩ => ⟨S32x128, .f32⟩
  | .hbm, ⟨58, _⟩ => ⟨S32x128, .f32⟩
  | .hbm, ⟨59, _⟩ => ⟨S32x128, .f32⟩
  | .hbm, ⟨60, _⟩ => ⟨S_, .f32⟩
  | .hbm, ⟨61, _⟩ => ⟨S32x128, .f32⟩
  | .hbm, ⟨62, _⟩ => ⟨S32x128, .f32⟩
  | .hbm, ⟨63, _⟩ => ⟨S_, .f32⟩
  | .hbm, ⟨64, _⟩ => ⟨S32x128, .f32⟩
  | .hbm, ⟨65, _⟩ => ⟨S32x128, .f32⟩
  | .hbm, ⟨66, _⟩ => ⟨S100000x128, .f32⟩
  | .hbm, ⟨67, _⟩ => ⟨S20x32x128, .f32⟩
  | .hbm, ⟨68, _⟩ => ⟨S_, .f32⟩
  | .hbm, ⟨69, _⟩ => ⟨S32x128, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S32x1, .f32⟩
  | .hbm, ⟨74, _⟩ => ⟨S32x128, .f32⟩
  | .hbm, ⟨75, _⟩ => ⟨S32x128, .f32⟩
  | .hbm, ⟨76, _⟩ => ⟨S32x128, .f32⟩
  | .hbm, ⟨77, _⟩ => ⟨S1x128, .f32⟩
  | .hbm, ⟨78, _⟩ => ⟨S32x128, .f32⟩
  | .hbm, ⟨79, _⟩ => ⟨S32x128, .f32⟩
  | .hbm, ⟨80, _⟩ => ⟨S_, .f32⟩
  | .hbm, ⟨81, _⟩ => ⟨S32x128, .f32⟩
  | .hbm, ⟨82, _⟩ => ⟨S32x128, .f32⟩
  | .hbm, ⟨83, _⟩ => ⟨S32x128, .f32⟩
  | .hbm, ⟨84, _⟩ => ⟨S1x128, .f32⟩
  | .hbm, ⟨85, _⟩ => ⟨S32x128, .f32⟩
  | .hbm, ⟨86, _⟩ => ⟨S32x128, .f32⟩
  | .hbm, ⟨87, _⟩ => ⟨S_, .f32⟩
  | .hbm, ⟨88, _⟩ => ⟨S32x128, .f32⟩
  | .hbm, ⟨89, _⟩ => ⟨S32x128, .f32⟩
  | .hbm, ⟨90, _⟩ => ⟨S32x128, .f32⟩
  | .hbm, ⟨91, _⟩ => ⟨S1x128, .f32⟩
  | .hbm, ⟨92, _⟩ => ⟨S32x128, .f32⟩
  | .hbm, ⟨93, _⟩ => ⟨S32x128, .f32⟩
  | .hbm, ⟨94, _⟩ => ⟨S32x128, .f32⟩
  | .hbm, ⟨95, _⟩ => ⟨S32x128, .f32⟩
  | .hbm, ⟨96, _⟩ => ⟨S_, .f32⟩
  | .hbm, ⟨97, _⟩ => ⟨S32x128, .f32⟩
  | .hbm, ⟨98, _⟩ => ⟨S32x128, .f32⟩
  | .hbm, ⟨99, _⟩ => ⟨S_, .f32⟩
  | .hbm, ⟨100, _⟩ => ⟨S32x128, .f32⟩
  | .hbm, ⟨101, _⟩ => ⟨S32x128, .f32⟩
  | .hbm, ⟨102, _⟩ => ⟨S1x600000, .i32⟩
  | .hbm, ⟨103, _⟩ => ⟨S600000, .i32⟩
  | .hbm, ⟨104, _⟩ => ⟨S_, .i32⟩
  | .hbm, ⟨105, _⟩ => ⟨S600000, .i32⟩
  | .hbm, ⟨106, _⟩ => ⟨S600000, .i1⟩
  | .hbm, ⟨107, _⟩ => ⟨S_, .i32⟩
  | .hbm, ⟨108, _⟩ => ⟨S600000, .i32⟩
  | .hbm, ⟨109, _⟩ => ⟨S600000, .i32⟩
  | .hbm, ⟨110, _⟩ => ⟨S600000, .i32⟩
  | .hbm, ⟨111, _⟩ => ⟨S600000x1, .i32⟩
  | .hbm, ⟨112, _⟩ => ⟨S1, .i32⟩
  | .hbm, ⟨113, _⟩ => ⟨S_, .i32⟩
  | .hbm, ⟨114, _⟩ => ⟨S600000x1, .i32⟩
  | .hbm, ⟨115, _⟩ => ⟨S600000x1, .i1⟩
  | .hbm, ⟨116, _⟩ => ⟨S1x1, .i32⟩
  | .hbm, ⟨117, _⟩ => ⟨S600000x1, .i32⟩
  | .hbm, ⟨118, _⟩ => ⟨S600000x1, .i1⟩
  | .hbm, ⟨119, _⟩ => ⟨S600000x1, .i1⟩
  | .hbm, ⟨120, _⟩ => ⟨S_, .i1⟩
  | .hbm, ⟨121, _⟩ => ⟨S600000, .i1⟩
  | .hbm, ⟨122, _⟩ => ⟨S600000, .i32⟩
  | .hbm, ⟨123, _⟩ => ⟨S_, .i32⟩
  | .hbm, ⟨124, _⟩ => ⟨S600000, .i32⟩
  | .hbm, ⟨125, _⟩ => ⟨S600000, .i32⟩
  | .hbm, ⟨126, _⟩ => ⟨S60x1x10000, .i32⟩
  | .hbm, ⟨127, _⟩ => ⟨S600000x128, .f32⟩
  | .local _ .vmem, ⟨0, _⟩ => ⟨S1x1x5000, .i32⟩
  | .local _ .vmem, ⟨1, _⟩ => ⟨S1x1x5000, .i32⟩
  | .local _ .vmem, ⟨2, _⟩ => ⟨S5000x128, .f32⟩
  | .local _ .vmem, ⟨3, _⟩ => ⟨S5000x128, .f32⟩
  | .local _ .vmem, ⟨4, _⟩ => ⟨S1x32x128, .f32⟩
  | .local _ .vmem, ⟨5, _⟩ => ⟨S1x32x128, .f32⟩
  | .local _ .vmem, ⟨6, _⟩ => ⟨S1x1x5000, .i32⟩
  | .local _ .vmem, ⟨7, _⟩ => ⟨S1x1x5000, .i32⟩
  | .local _ .vmem, ⟨8, _⟩ => ⟨S5000x128, .f32⟩
  | .local _ .vmem, ⟨9, _⟩ => ⟨S5000x128, .f32⟩
  | .local _ .vmem, ⟨10, _⟩ => ⟨S32x128, .f32⟩
  | .local _ .vmem, ⟨11, _⟩ => ⟨S5000x128, .f32⟩
  | .local _ .vmem, ⟨12, _⟩ => ⟨S5000x128, .f32⟩
  | .local _ .vmem, ⟨13, _⟩ => ⟨S1x32x128, .f32⟩
  | .local _ .vmem, ⟨14, _⟩ => ⟨S1x32x128, .f32⟩
  | .local _ .vmem, ⟨15, _⟩ => ⟨S1x1x10000, .i32⟩
  | .local _ .vmem, ⟨16, _⟩ => ⟨S1x1x10000, .i32⟩
  | .local _ .vmem, ⟨17, _⟩ => ⟨S10000x128, .f32⟩
  | .local _ .vmem, ⟨18, _⟩ => ⟨S10000x128, .f32⟩
  | .local _ .vmem, ⟨19, _⟩ => ⟨S32x128, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call1_cst : Ref sig .tc := ⟨.hbm, 44, rfl⟩
abbrev main_call1_v0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call2_cst : Ref sig .tc := ⟨.hbm, 51, rfl⟩
abbrev main_call2_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_v33_0 : Ref sig .tc := ⟨.hbm, 66, rfl⟩
abbrev main_v33_1 : Ref sig .tc := ⟨.hbm, 67, rfl⟩
abbrev main_cst_6 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call3_cst : Ref sig .tc := ⟨.hbm, 80, rfl⟩
abbrev main_call3_v0 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_call4_cst : Ref sig .tc := ⟨.hbm, 87, rfl⟩
abbrev main_call4_v0 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_8 : Ref sig .tc := ⟨.hbm, 96, rfl⟩
abbrev main_v56 : Ref sig .tc := ⟨.hbm, 97, rfl⟩
abbrev main_v57 : Ref sig .tc := ⟨.hbm, 98, rfl⟩
abbrev main_cst_9 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_call5_c : Ref sig .tc := ⟨.hbm, 104, rfl⟩
abbrev main_call5_v0 : Ref sig .tc := ⟨.hbm, 105, rfl⟩
abbrev main_call5_v1 : Ref sig .tc := ⟨.hbm, 106, rfl⟩
abbrev main_call5_c_0 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_c_1 : Ref sig .tc := ⟨.hbm, 112, rfl⟩
abbrev main_call5_c_2 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_3 : Ref sig .tc := ⟨.hbm, 120, rfl⟩
abbrev main_call5_v12 : Ref sig .tc := ⟨.hbm, 121, rfl⟩
abbrev main_call5_v13 : Ref sig .tc := ⟨.hbm, 122, rfl⟩
abbrev main_call5_c_4 : Ref sig .tc := ⟨.hbm, 123, rfl⟩
abbrev main_call5_v14 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x5000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x5000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![60], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x1x10000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S100000 : S_.BroadcastsInDim S100000 (![] : Fin 0 → Fin S100000.rank)
  shapeCasts_S100000_S20x1x5000 : S100000.ShapeCasts S20x1x5000
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  iota_S32x5000_d0_w32 : S32x5000.Iotas .tc 32 [0]
  broadcasts_S1x5000_S32x5000 : S1x5000.Broadcasts S32x5000
  natLt_1_32 : 1 < 32
  shapeCasts_S32x128_S1x32x128 : S32x128.ShapeCasts S1x32x128
  inb_S1x32x128_S1x32x128_0_0_0 : ∀ a, (![0, 0, 0] : Fin 3 → Nat) a + S1x32x128.size a ≤ S1x32x128.size a
  h_S1x32x128 : 0 < S1x32x128.numel
  reducesTo_S20x32x128_S32x128_d0 : S20x32x128.ReducesTo [0] S32x128
  h_S_ : 0 < S_.numel
  bcast_S_S32 : S_.BroadcastsInDim S32 (![] : Fin 0 → Fin S32.rank)
  bcast_S100000_S100000x1_0 : S100000.BroadcastsInDim S100000x1 (![0] : Fin 1 → Fin S100000x1.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  inb_S32x128_S32x128_0_0 : ∀ a, (![0, 0] : Fin 2 → Nat) a + S32x128.size a ≤ S32x128.size a
  h_S32x128 : 0 < S32x128.numel
  shapeCasts_S32x128_S32x128 : S32x128.ShapeCasts S32x128
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  shapeCasts_S600000_S60x1x10000 : S600000.ShapeCasts S60x1x10000
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  inb_S10000x128_S10000x128_0_0 : ∀ a, (![0, 0] : Fin 2 → Nat) a + S10000x128.size a ≤ S10000x128.size a
  h_S10000x128 : 0 < S10000x128.numel
  iota_S32x10000_d0_w32 : S32x10000.Iotas .tc 32 [0]
  broadcasts_S1x10000_S32x10000 : S1x10000.Broadcasts S32x10000
  dot_S32x5000_S5000x128_S32x128_1_0_0_1_n_n_wf : DotDims.WF S32x5000 S5000x128 S32x128 [1] [0] [0] [1] [] []
  scatter_S32_S100000x1_S100000_n_0_0_1_wf : ScatterDims.WF S32 S100000x1 S100000 [] [0] [0] 1
  dot_S32x128_S128x128_S32x128_1_0_0_1_n_n_wf : DotDims.WF S32x128 S128x128 S32x128 [1] [0] [0] [1] [] []
  dot_S32x5000_S32x128_S5000x128_0_0_1_1_n_n_wf : DotDims.WF S32x5000 S32x128 S5000x128 [0] [0] [1] [1] [] []
  gather_S100000_S600000x1_S600000_n_0_n_n_0_1_1_wf : GatherDims.WF S100000 S600000x1 S600000 [] [0] [] [0] [] 1 ![1]
  dot_S32x10000_S32x128_S10000x128_0_0_1_1_n_n_wf : DotDims.WF S32x10000 S32x128 S10000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x5000.size a ≤ S20x1x5000.size a
  hwx0_0 : ∀ i : grid0.Coords, EltTy.bits .i32 = 32 ∨ (Rect.block (s := S20x1x5000) S1x1x5000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S20x32x128.size a
  hwx0_2 : ∀ i : grid0.Coords, EltTy.bits .f32 = 32 ∨ (Rect.block (s := S20x32x128) S1x32x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x5000.size a ≤ S20x1x5000.size a
  hwx1_0 : ∀ i : grid1.Coords, EltTy.bits .i32 = 32 ∨ (Rect.block (s := S20x1x5000) S1x1x5000.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x128.size a ≤ S20x32x128.size a
  hwx1_4 : ∀ i : grid1.Coords, EltTy.bits .f32 = 32 ∨ (Rect.block (s := S20x32x128) S1x32x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x10000.size a ≤ S60x1x10000.size a
  hwx2_0 : ∀ i : grid2.Coords, EltTy.bits .i32 = 32 ∨ (Rect.block (s := S60x1x10000) S1x1x10000.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S600000x128.size a
  hwx2_1 : ∀ i : grid2.Coords, EltTy.bits .f32 = 32 ∨ (Rect.block (s := S600000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .f32 = 32 ∨ (Rect.block (s := S32x128) S32x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S600000x128.size a
  hwx2_3 : ∀ i : grid2.Coords, EltTy.bits .f32 = 32 ∨ (Rect.block (s := S600000x128) S10000x128.size (cc2_transform_3 i) (hinb2_3 i)).WholeWords (EltTy.packing .f32)

variable [Facts₀]

def dot_S32x5000_S5000x128_S32x128_1_0_0_1_n_n : DotDims S32x5000 S5000x128 S32x128 where
  lhsContracting := [1]
  rhsContracting := [0]
  lhsNonContracting := [0]
  rhsNonContracting := [1]
  lhsBatch := []
  rhsBatch := []
  wf := dot_S32x5000_S5000x128_S32x128_1_0_0_1_n_n_wf
def scatter_S32_S100000x1_S100000_n_0_0_1 : ScatterDims S32 S100000x1 S100000 where
  updateWindowDims := []
  insertedWindowDims := [0]
  scatterDimsToOperandDims := [0]
  indexVectorDim := 1
  wf := scatter_S32_S100000x1_S100000_n_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x5000_S32x128_S5000x128_0_0_1_1_n_n : DotDims S32x5000 S32x128 S5000x128 where
  lhsContracting := [0]
  rhsContracting := [0]
  lhsNonContracting := [1]
  rhsNonContracting := [1]
  lhsBatch := []
  rhsBatch := []
  wf := dot_S32x5000_S32x128_S5000x128_0_0_1_1_n_n_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S32x10000_S32x128_S10000x128_0_0_1_1_n_n : DotDims S32x10000 S32x128 S10000x128 where
  lhsContracting := [0]
  rhsContracting := [0]
  lhsNonContracting := [1]
  rhsNonContracting := [1]
  lhsBatch := []
  rhsBatch := []
  wf := dot_S32x10000_S32x128_S10000x128_0_0_1_1_n_n_wf

abbrev win0_0 : Pipeline.Window sig grid0 :=
  Pipeline.Window.ofSpec (Memref.whole main_v1) S1x1x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x1x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33_1) S1x32x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v63) S1x1x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S_ : Shape := ⟨0, ![]⟩
abbrev S32x128 : Shape := ⟨2, ![32, 128]⟩
abbrev S100000x1 : Shape := ⟨2, ![100000, 1]⟩
abbrev S32 : Shape := ⟨1, ![32]⟩
abbrev S32x1 : Shape := ⟨2, ![32, 1]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S600000x128, .f32⟩
  | 2 => ⟨S2x600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S_, .f32⟩
  | 17 => ⟨S32x128, .f32⟩
  | 18 => ⟨S100000x1, .i32⟩
  | 19 => ⟨S32x128, .f32⟩
  | 20 => ⟨S_, .f32⟩
  | 21 => ⟨S100000, .f32⟩
  | 22 => ⟨S_, .f32⟩
  | 23 => ⟨S32, .f32⟩
  | 24 => ⟨S100000x1, .i32⟩
  | 25 => ⟨S32, .f32⟩
  | 26 => ⟨S_, .f32⟩
  | 27 => ⟨S32, .f32⟩
  | 28 => ⟨S32, .f32⟩
  | 29 => ⟨S32x1, .f32⟩
  | 30 => ⟨S32x128, .f32⟩
  | 31 => ⟨S32x128, .f32⟩
  | 32 => ⟨S32x128, .f32⟩
  | 33 => ⟨S1x128, .f32⟩
  | 34 => ⟨S32x128, .f32⟩
  | 35 => ⟨S32x128, .f32⟩
  | 36 => ⟨S_, .f32⟩
  | 37 => ⟨S32x128, .f32⟩
  | 38 => ⟨S32x128, .f32⟩
  | 39 => ⟨S32x128, .f32⟩
  | 40 => ⟨S1x128, .f32⟩
  | 41 => ⟨S32x128, .f32⟩
  | 42 => ⟨S32x128, .f32⟩
  | 43 => ⟨S_, .f32⟩
  | 44 => ⟨S32x128, .f32⟩
  | 45 => ⟨S32x128, .f32⟩
  | 46 => ⟨S32x128, .f32⟩
  | 47 => ⟨S1x128, .f32⟩
  | 48 => ⟨S32x128, .f32⟩
  | 49 => ⟨S32x128, .f32⟩
  | 50 => ⟨S32x128, .f32⟩
  | 51 => ⟨S32x128, .f32⟩
  | 52 => ⟨S_, .f32⟩
  | 53 => ⟨S32x128, .f32⟩
  | 54 => ⟨S32x128, .f32⟩
  | 55 => ⟨S_, .f32⟩
  | 56 => ⟨S32x128, .f32⟩
  | 57 => ⟨S32x128, .f32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S100000x128, .f32⟩
  | 67 => ⟨S100000x128, .f32⟩
  | 68 => ⟨S_, .f32⟩
  | 69 => ⟨S32x128, .f32⟩
  | 70 => ⟨S100000x1, .i32⟩
  | 71 => ⟨S32x128, .f32⟩
  | 72 => ⟨S_, .f32⟩
  | 73 => ⟨S100000, .f32⟩
  | 74 => ⟨S_, .f32⟩
  | 75 => ⟨S32, .f32⟩
  | 76 => ⟨S100000x1, .i32⟩
  | 77 => ⟨S32, .f32⟩
  | 78 => ⟨S_, .f32⟩
  | 79 => ⟨S32, .f32⟩
  | 80 => ⟨S32, .f32⟩
  | 81 => ⟨S32x1, .f32⟩
  | 82 => ⟨S32x128, .f32⟩
  | 83 => ⟨S32x128, .f32⟩
  | 84 => ⟨S32x128, .f32⟩
  | 85 => ⟨S1x128, .f32⟩
  | 86 => ⟨S32x128, .f32⟩
  | 87 => ⟨S32x128, .f32⟩
  | 88 => ⟨S_, .f32⟩
  | 89 => ⟨S32x128, .f32⟩
  | 90 => ⟨S32x128, .f32⟩
  | 91 => ⟨S32x128, .f32⟩
  | 92 => ⟨S1x128, .f32⟩
  | 93 => ⟨S32x128, .f32⟩
  | 94 => ⟨S32x128, .f32⟩
  | 95 => ⟨S_, .f32⟩
  | 96 => ⟨S32x128, .f32⟩
  | 97 => ⟨S32x128, .f32⟩
  | 98 => ⟨S32x128, .f32⟩
  | 99 => ⟨S1x128, .f32⟩
  | 100 => ⟨S32x128, .f32⟩
  | 101 => ⟨S32x128, .f32⟩
  | 102 => ⟨S32x128, .f32⟩
  | 103 => ⟨S32x128, .f32⟩
  | 104 => ⟨S_, .f32⟩
  | 105 => ⟨S32x128, .f32⟩
  | 106 => ⟨S32x128, .f32⟩
  | 107 => ⟨S_, .f32⟩
  | 108 => ⟨S32x128, .f32⟩
  | 109 => ⟨S32x128, .f32⟩
  | 110 => ⟨S1x600000, .i32⟩
  | 111 => ⟨S600000, .i32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000, .i32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S100000x128, .f32⟩

abbrev hbmTy0_1 (i : Nat) : BufTy := match i % 128 with
  | 0 => ⟨S600000x1, .i32⟩
  | 1 => ⟨S600000x128, .f32⟩
  | 2 => ⟨S600000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_cst : Ref sig .tc := ⟨.hbm, 43, rfl⟩
abbrev main_call1_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_c : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call2_cst : Ref sig .tc := ⟨.hbm, 88, rfl⟩
abbrev main_call2_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call3_cst : Ref sig .tc := ⟨.hbm, 95, rfl⟩
abbrev main_call3_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_12 : Ref sig .tc := ⟨.hbm, 112, rfl⟩
abbrev main_v74 : Ref sig .tc := ⟨.hbm, 113, rfl⟩
abbrev main_v75 : Ref sig .tc := ⟨.hbm, 114, rfl⟩
abbrev main_c_13 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_14 : Ref sig .tc := ⟨.hbm, 121, rfl⟩
abbrev main_v81 : Ref sig .tc := ⟨.hbm, 122, rfl⟩
abbrev main_v82 : Ref sig .tc := ⟨.hbm, 123, rfl⟩
abbrev main_c_15 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩

abbrev nD : Nat := 1
abbrev τ : Topo := Topo.v7x

variable {F : FTy → Type} [FloatOps F]

class Facts₀ : Prop where
  bcast_S_S32x128 : S_.BroadcastsInDim S32x128 (![] : Fin 0 → Fin S32x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  scatter_S32x128_S100000x1_S100000x128_1_0_0_1_wf : ScatterDims.WF S32x128 S100000x1 S100000x128 [1] [0] [0] 1
  scatter_S32_S100000x1_S100000_n_0_0_1_wf : ScatterDims.WF S32 S100000x1 S100000 [] [0] [0] 1
  dot_S32x128_S128x128_S32x128_1_0_0_1_n_n_wf : DotDims.WF S32x128 S128x128 S32x128 [1] [0] [0] [1] [] []
  gather_S32x128_S100000x1_S100000x128_1_0_n_n_0_1_1128_wf : GatherDims.WF S32x128 S100000x1 S100000x128 [1] [0] [] [0] [] 1 ![1, 128]
  gather_S100000_S600000x1_S600000_n_0_n_n_0_1_1_wf : GatherDims.WF S100000 S600000x1 S600000 [] [0] [] [0] [] 1 ![1]
  gather_S32x128_S600000x1_S600000x128_1_0_n_n_0_1_1128_wf : GatherDims.WF S32x128 S600000x1 S600000x128 [1] [0] [] [0] [] 1 ![1, 128]

variable [Facts₀]

def scatter_S32x128_S100000x1_S100000x128_1_0_0_1 : ScatterDims S32x128 S100000x1 S100000x128 where
  updateWindowDims := [1]
  insertedWindowDims := [0]
  scatterDimsToOperandDims := [0]
  indexVectorDim := 1
  wf := scatter_S32x128_S100000x1_S100000x128_1_0_0_1_wf
def scatter_S32_S100000x1_S100000_n_0_0_1 : ScatterDims S32 S100000x1 S100000 where
  updateWindowDims := []
  insertedWindowDims := [0]
  scatterDimsToOperandDims := [0]
  indexVectorDim := 1
  wf := scatter_S32_S100000x1_S100000_n_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def gather_S32x128_S100000x1_S100000x128_1_0_n_n_0_1_1128 : GatherDims S32x128 S100000x1 S100000x128 where
  offsetDims := [1]
  collapsedSliceDims := [0]
  operandBatchingDims := []
  startIndicesBatchingDims := []
  startIndexMap := [0]
  indexVectorDim := 1
  sliceSizes := ![1, 128]
  wf := gather_S32x128_S100000x1_S100000x128_1_0_n_n_0_1_1128_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S32x128_S600000x1_S600000x128_1_0_n_n_0_1_1128 : GatherDims S32x128 S600000x1 S600000x128 where
  offsetDims := [1]
  collapsedSliceDims := [0]
  operandBatchingDims := []
  startIndicesBatchingDims := []
  startIndexMap := [0]
  indexVectorDim := 1
  sliceSizes := ![1, 128]
  wf := gather_S32x128_S600000x1_S600000x128_1_0_n_n_0_1_1128_wf

class Facts : Prop extends Facts₀ where

variable [Facts]
-- ==== Proof.KernelHost.lean ====
/-
  What the kernel's host operations leave in the buffers each pallas_call reads, as functions of the arguments.

  The labels are clamped to [0, 31] and laid out tile by tile; the gate table of each gated region is the logistic of a
  three-layer perceptron of the segment means (a sum table divided by the segment counts, at least one); the edges'
  labels are the labels of their source nodes, read with out-of-range sources filled by the least integer.
-/
import proofs.«412414_j16080357556866_3_alg».proof.Proof.Gen.KernelIdeal.Frame

set_option maxRecDepth 16384

noncomputable section

namespace Cert.KernelIdeal.Host

open Cert.KernelIdeal.Gen
open Idealize.ShloMosaic Idealize.ShloMosaic.TcCoe Idealize.ShloMosaic.StableHlo
open Idealize.SL.Sem
open Idealize.ShloMosaic.Pipeline (Dat Cfg Window)

variable {F : FTy → Type} [FloatOps F]

/-- Closes `after ops V b = V b` for a literal stretch `ops` none of whose operations writes the buffer `b`. -/
macro "untouched" : tactic => `(tactic| (
  refine StableHlo.after_of_forall_not_mem _ _ (List.forall_iff_forall_mem.mp ?_)
  simp only [hostOps0, hostOps0_1, hostOps0_2, hostOps1, hostOps1_1, hostOps1_2, hostOps1_3, hostOps1_4, hostOps2, hostOps2_1,
    hostOps2_2, hostOps2_3, hostOps2_4, hostOps2_5, hostOps2_6, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The host computations, named -/

/-- The labels clamped to the segment range [0, 31]. -/
def clipIds (ids : IVec S100000 32) : IVec S100000 32 :=
  minsi (broadcastInDim S100000 ![] bcast_S_S100000 (id (constantI S_ 32 31#32)))
    (maxsi (broadcastInDim S100000 ![] bcast_S_S100000 (id (constantI S_ 32 0#32))) ids)

/-- The number of rows per segment, as floats. -/
def counts (ids : IVec S100000 32) : FVec F S32 .f32 :=
  Host.scatterAdd scatter_S32_S100000x1_S100000_n_0_0_1
    (broadcastInDim S32 ![] bcast_S_S32 (constant S_ .f32 0x00000000#32))
    (broadcastInDim S100000x1 ![0] bcast_S100000_S100000x1_0 ids)
    (broadcastInDim S100000 ![] bcast_S_S100000 (constant S_ .f32 0x3F800000#32))

/-- One layer's pre-activation: the product with the weights plus the bias row. -/
def layer (W : FVec F S128x128 .f32) (b : FVec F S128 .f32) (h : FVec F S32x128 .f32) : FVec F S32x128 .f32 :=
  addf (Host.dotGeneral dot_S32x128_S128x128_S32x128_1_0_0_1_n_n none h W)
    (broadcastInDim S32x128 ![0, 1] bcast_S1x128_S32x128_0_1 (broadcastInDim S1x128 ![1] bcast_S128_S1x128_1 b))

/-- The positive part. -/
def relu (h : FVec F S32x128 .f32) : FVec F S32x128 .f32 :=
  maximumf h (broadcastInDim S32x128 ![] bcast_S_S32x128 (constant S_ .f32 0x00000000#32))

/-- The gate table: the logistic of the three-layer perceptron of the segment means `sum / max(cnt, 1)`. -/
def gate (W1 : FVec F S128x128 .f32) (b1 : FVec F S128 .f32) (W2 : FVec F S128x128 .f32) (b2 : FVec F S128 .f32)
    (W3 : FVec F S128x128 .f32) (b3 : FVec F S128 .f32) (sum : FVec F S32x128 .f32) (cnt : FVec F S32 .f32) :
    FVec F S32x128 .f32 :=
  Host.divf (broadcastInDim S32x128 ![] bcast_S_S32x128 (constant S_ .f32 0x3F800000#32))
    (addf (broadcastInDim S32x128 ![] bcast_S_S32x128 (constant S_ .f32 0x3F800000#32))
      (Host.exp (Host.negf (layer W3 b3 (relu (layer W2 b2 (relu (layer W1 b1
        (Host.divf sum (broadcastInDim S32x128 ![0, 1] bcast_S32x1_S32x128_0_1 (broadcastInDim S32x1 ![0] bcast_S32_S32x1_0
          (maximumf cnt (broadcastInDim S32 ![] bcast_S_S32 (constant S_ .f32 0x3F800000#32))))))))))))))

/-- The edges' source nodes: the first row of the index array. -/
def edgeSrc (edge : IVec S2x600000 32) : IVec S600000 32 :=
  shapeCast S600000 (extractStridedSlice S1x600000 ![0, 0] edge slices_S2x600000_S1x600000_0_0) shapeCasts_S1x600000_S600000

/-- A negative source counted from the end of the 100000 rows. -/
def wrapSrc (e : IVec S600000 32) : IVec S600000 32 :=
  select (cmpi .slt e (broadcastInDim S600000 ![] bcast_S_S600000 (constantI S_ 32 0#32)))
    (addi e (broadcastInDim S600000 ![] bcast_S_S600000 (constantI S_ 32 100000#32))) e

/-- The wrapped sources as a column of start indices. -/
def srcCol (e : IVec S600000 32) : IVec S600000x1 32 :=
  broadcastInDim S600000x1 ![0] bcast_S600000_S600000x1_0 (wrapSrc e)

/-- The labels at the sources: a source outside [0, 99999] reads the least integer. -/
def takeIds (ids : IVec S100000 32) (e : IVec S600000 32) : IVec S600000 32 :=
  select
    (Host.reduce IntOp.andi
      (andi (cmpi .sge (srcCol e) (broadcastInDim S600000x1 ![] bcast_S_S600000x1 (constantI S_ 32 0#32)))
        (cmpi .sle (srcCol e) (broadcastInDim S600000x1 ![0, 1] bcast_S1x1_S600000x1_0_1
          (broadcastInDim S1x1 ![1] bcast_S1_S1x1_1 (constantI S1 32 99999#32)))))
      (constantI S_ 1 1#1) reducesTo_S600000x1_S600000_d1 h_S_)
    (Host.gather gather_S100000_S600000x1_S600000_n_0_n_n_0_1_1 ids (srcCol e))
    (broadcastInDim S600000 ![] bcast_S_S600000 (constantI S_ 32 2147483648#32))

variable (m : (ℓ : Loc nD τ sig) → Buf (Elt F) ℓ) (ρ : Dev nD → PrngReg)

/-- The clamped labels laid out tile by tile, 20 tiles of 5000. -/
abbrev labels3 (c : Dev nD) : IVec S20x1x5000 32 :=
  shapeCast S20x1x5000 (clipIds (m ((c : Thread nD τ).loc main_arg3))) shapeCasts_S100000_S20x1x5000

/-! ## Region 0's inputs -/

/-- The labels as region 0 finds them: clamped, tile by tile. -/
theorem v3_labels (c : Dev nD) :
    V3 m ρ c main_v1
      = shapeCast S20x1x5000 (clipIds (m ((c : Thread nD τ).loc main_arg3))) shapeCasts_S100000_S20x1x5000 := by
  show after hostOps0_2 (after hostOps0_1 (after hostOps0 (W0 m ρ c))) (Proc.devRef .tc main_v1) = _
  simp only [hostOps0, hostOps0_1, hostOps0_2]
  after_results
  rfl

theorem v3_rows (c : Dev nD) : V3 m ρ c main_arg0 = m ((c : Thread nD τ).loc main_arg0) := by
  show after hostOps0_2 (after hostOps0_1 (after hostOps0 (W0 m ρ c))) (Proc.devRef .tc main_arg0) = _
  simp only [hostOps0, hostOps0_1, hostOps0_2]
  after_results

/-! ## After region 0 -/

theorem w3_clip (c : Dev nD) : W3 m ρ c (Proc.devRef .tc main_v0) = clipIds (m ((c : Thread nD τ).loc main_arg3)) := by
  show after hostOps0_2 (after hostOps0_1 (after hostOps0 (W0 m ρ c))) (Proc.devRef .tc main_v0) = _
  simp only [hostOps0, hostOps0_1, hostOps0_2]
  after_results
  rfl

/-- An argument no region-0 window names is, before region 0, as launched. -/
theorem w3_arg (b : Ref sig .tc) (hb : b ∈ [main_arg1, main_arg2, main_arg4, main_arg5, main_arg6, main_arg7, main_arg8, main_arg9,
    main_arg10, main_arg11, main_arg12, main_arg13, main_arg14, main_arg15]) (c : Dev nD) :
    W3 m ρ c (Proc.devRef .tc b) = m ((c : Thread nD τ).loc b) := by
  show after hostOps0_2 (after hostOps0_1 (after hostOps0 (W0 m ρ c))) (Proc.devRef .tc b) = _
  simp only [List.mem_cons, List.not_mem_nil, or_false] at hb
  rcases hb with rfl | rfl | rfl | rfl | rfl | rfl | rfl | rfl | rfl | rfl | rfl | rfl | rfl | rfl <;>
    (simp only [hostOps0, hostOps0_1, hostOps0_2]; after_results)

theorem w4_part (c : Dev nD) : W4 m ρ c (Proc.devRef .tc main_v2) = (dat0 (V3 m ρ) c).arrAt 2 cfg0.N := W4_arr m ρ c 2

theorem w4_labels (c : Dev nD) : W4 m ρ c (Proc.devRef .tc main_v1) = labels3 m c :=
  (W4_arr m ρ c 0).trans (((dat0 (V3 m ρ) c).arrAt_in 0 rfl _).trans ((A_eq0 (V3 m ρ) c 0).trans (v3_labels m ρ c)))

theorem w4_rows (c : Dev nD) : W4 m ρ c (Proc.devRef .tc main_arg0) = m ((c : Thread nD τ).loc main_arg0) :=
  (W4_arr m ρ c 1).trans (((dat0 (V3 m ρ) c).arrAt_in 1 rfl _).trans ((A_eq0 (V3 m ρ) c 1).trans (v3_rows m ρ c)))

theorem w4_clip (c : Dev nD) : W4 m ρ c (Proc.devRef .tc main_v0) = clipIds (m ((c : Thread nD τ).loc main_arg3)) :=
  (W4_of_ne m ρ c main_v0 (by decide)).trans (w3_clip m ρ c)

theorem w4_arg (b : Ref sig .tc) (hb : b ∈ [main_arg1, main_arg2, main_arg4, main_arg5, main_arg6, main_arg7, main_arg8, main_arg9,
    main_arg10, main_arg11, main_arg12, main_arg13, main_arg14, main_arg15]) (c : Dev nD) :
    W4 m ρ c (Proc.devRef .tc b) = m ((c : Thread nD τ).loc b) := by
  refine (W4_of_ne m ρ c b ?_).trans (w3_arg m ρ b hb c)
  simp only [List.mem_cons, List.not_mem_nil, or_false] at hb
  rcases hb with rfl | rfl | rfl | rfl | rfl | rfl | rfl | rfl | rfl | rfl | rfl | rfl | rfl | rfl <;> decide

/-! ## Region 1's inputs -/

theorem v9_labels (c : Dev nD) : V9 m ρ c main_v1 = labels3 m c := by
  show after hostOps1_4 (after hostOps1_3 (after hostOps1_2 (after hostOps1_1 (after hostOps1 (W4 m ρ c)))))
    (Proc.devRef .tc main_v1) = _
  simp only [hostOps1, hostOps1_1, hostOps1_2, hostOps1_3, hostOps1_4]
  after_results
  exact w4_labels m ρ c

theorem v9_rows (c : Dev nD) : V9 m ρ c main_arg0 = m ((c : Thread nD τ).loc main_arg0) := by
  show after hostOps1_4 (after hostOps1_3 (after hostOps1_2 (after hostOps1_1 (after hostOps1 (W4 m ρ c)))))
    (Proc.devRef .tc main_arg0) = _
  simp only [hostOps1, hostOps1_1, hostOps1_2, hostOps1_3, hostOps1_4]
  after_results
  exact w4_rows m ρ c

set_option maxHeartbeats 8000000 in
/-- The node gate table: the perceptron of the means of region 0's partial sums, summed over the tiles. -/
theorem v9_gate (c : Dev nD) :
    V9 m ρ c main_v32
      = gate (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (Host.reduceAdd ((dat0 (V3 m ρ) c).arrAt 2 cfg0.N) (constant S_ .f32 0x00000000#32) reducesTo_S20x32x128_S32x128_d0 h_S_)
          (counts (clipIds (m ((c : Thread nD τ).loc main_arg3)))) := by
  show after hostOps1_4 (after hostOps1_3 (after hostOps1_2 (after hostOps1_1 (after hostOps1 (W4 m ρ c)))))
    (Proc.devRef .tc main_v32) = _
  simp only [hostOps1, hostOps1_1, hostOps1_2, hostOps1_3, hostOps1_4]
  after_results_simp
  rw [w4_part, w4_clip, w4_arg m ρ main_arg4 (by simp), w4_arg m ρ main_arg5 (by simp), w4_arg m ρ main_arg6 (by simp),
    w4_arg m ρ main_arg7 (by simp), w4_arg m ρ main_arg8 (by simp), w4_arg m ρ main_arg9 (by simp)]
  rfl

/-! ## After region 1 -/

theorem w10_out0 (c : Dev nD) : W10 m ρ c (Proc.devRef .tc main_v33_0) = (dat1 (V9 m ρ) c).arrAt 3 cfg1.N := W10_arr m ρ c 3

theorem w10_part (c : Dev nD) : W10 m ρ c (Proc.devRef .tc main_v33_1) = (dat1 (V9 m ρ) c).arrAt 4 cfg1.N := W10_arr m ρ c 4

theorem w9_counts (c : Dev nD) : W9 m ρ c (Proc.devRef .tc main_v7) = counts (clipIds (m ((c : Thread nD τ).loc main_arg3))) := by
  show after hostOps1_4 (after hostOps1_3 (after hostOps1_2 (after hostOps1_1 (after hostOps1 (W4 m ρ c)))))
    (Proc.devRef .tc main_v7) = _
  simp only [hostOps1, hostOps1_1, hostOps1_2, hostOps1_3, hostOps1_4]
  after_results
  rw [w4_clip]
  rfl

theorem w9_clip (c : Dev nD) : W9 m ρ c (Proc.devRef .tc main_v0) = clipIds (m ((c : Thread nD τ).loc main_arg3)) := by
  show after hostOps1_4 (after hostOps1_3 (after hostOps1_2 (after hostOps1_1 (after hostOps1 (W4 m ρ c)))))
    (Proc.devRef .tc main_v0) = _
  simp only [hostOps1, hostOps1_1, hostOps1_2, hostOps1_3, hostOps1_4]
  after_results
  exact w4_clip m ρ c

theorem w9_arg (b : Ref sig .tc) (hb : b ∈ [main_arg1, main_arg2, main_arg10, main_arg11, main_arg12, main_arg13, main_arg14, main_arg15])
    (c : Dev nD) : W9 m ρ c (Proc.devRef .tc b) = m ((c : Thread nD τ).loc b) := by
  have hb' : b ∈ [main_arg1, main_arg2, main_arg4, main_arg5, main_arg6, main_arg7, main_arg8, main_arg9,
      main_arg10, main_arg11, main_arg12, main_arg13, main_arg14, main_arg15] := by
    simp only [List.mem_cons, List.not_mem_nil, or_false] at hb ⊢
    rcases hb with h | h | h | h | h | h | h | h <;> simp [h]
  refine Eq.trans ?_ (w4_arg m ρ b hb' c)
  simp only [List.mem_cons, List.not_mem_nil, or_false] at hb
  rcases hb with rfl | rfl | rfl | rfl | rfl | rfl | rfl | rfl <;>
    (refine Eq.trans (?_ : W9 m ρ c _ = W8 m ρ c _) (Eq.trans (?_ : W8 m ρ c _ = W7 m ρ c _)
      (Eq.trans (?_ : W7 m ρ c _ = W6 m ρ c _) (Eq.trans (?_ : W6 m ρ c _ = W5 m ρ c _) (?_ : W5 m ρ c _ = W4 m ρ c _)))) <;>
      untouched)

theorem w10_counts (c : Dev nD) : W10 m ρ c (Proc.devRef .tc main_v7) = counts (clipIds (m ((c : Thread nD τ).loc main_arg3))) :=
  (W10_of_ne m ρ c main_v7 (by decide)).trans (w9_counts m ρ c)

theorem w10_clip (c : Dev nD) : W10 m ρ c (Proc.devRef .tc main_v0) = clipIds (m ((c : Thread nD τ).loc main_arg3)) :=
  (W10_of_ne m ρ c main_v0 (by decide)).trans (w9_clip m ρ c)

theorem w10_arg (b : Ref sig .tc) (hb : b ∈ [main_arg1, main_arg2, main_arg10, main_arg11, main_arg12, main_arg13, main_arg14, main_arg15])
    (c : Dev nD) : W10 m ρ c (Proc.devRef .tc b) = m ((c : Thread nD τ).loc b) := by
  refine (W10_of_ne m ρ c b ?_).trans (w9_arg m ρ b hb c)
  simp only [List.mem_cons, List.not_mem_nil, or_false] at hb
  rcases hb with rfl | rfl | rfl | rfl | rfl | rfl | rfl | rfl <;> decide

/-! ## Region 2's inputs, and where the results end -/

/-- The edges' labels, tile by tile, 60 tiles of 10000. -/
abbrev edgeLabels3 (c : Dev nD) : IVec S60x1x10000 32 :=
  shapeCast S60x1x10000 (takeIds (clipIds (m ((c : Thread nD τ).loc main_arg3))) (edgeSrc (m ((c : Thread nD τ).loc main_arg2))))
    shapeCasts_S600000_S60x1x10000

set_option maxRecDepth 200000 in
set_option maxHeartbeats 8000000 in
theorem v17_labels (c : Dev nD) : V17 m ρ c main_v63 = edgeLabels3 m c := by
  show after hostOps2_6 (after hostOps2_5 (after hostOps2_4 (after hostOps2_3 (after hostOps2_2 (after hostOps2_1
    (after hostOps2 (W10 m ρ c))))))) (Proc.devRef .tc main_v63) = _
  simp only [hostOps2, hostOps2_1, hostOps2_2, hostOps2_3, hostOps2_4, hostOps2_5, hostOps2_6]
  after_results_simp
  rw [w10_clip, w10_arg m ρ main_arg2 (by simp)]
  simp only [TRef.toBuf, TRef.ofBuf, cast_cast, cast_eq]
  rfl

theorem v17_rows (c : Dev nD) : V17 m ρ c main_arg1 = m ((c : Thread nD τ).loc main_arg1) := by
  refine Eq.trans ?_ (w10_arg m ρ main_arg1 (by simp) c)
  refine Eq.trans (?_ : W17 m ρ c _ = W16 m ρ c _) (Eq.trans (?_ : W16 m ρ c _ = W15 m ρ c _) (Eq.trans (?_ : W15 m ρ c _ = W14 m ρ c _)
    (Eq.trans (?_ : W14 m ρ c _ = W13 m ρ c _) (Eq.trans (?_ : W13 m ρ c _ = W12 m ρ c _) (Eq.trans (?_ : W12 m ρ c _ = W11 m ρ c _)
      (?_ : W11 m ρ c _ = W10 m ρ c _)))))) <;> untouched

set_option maxHeartbeats 8000000 in
/-- The edge gate table: the perceptron of the means of region 1's partial sums, summed over the tiles. -/
theorem v17_gate (c : Dev nD) :
    V17 m ρ c main_v59
      = gate (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
          (Host.reduceAdd ((dat1 (V9 m ρ) c).arrAt 4 cfg1.N) (constant S_ .f32 0x00000000#32) reducesTo_S20x32x128_S32x128_d0 h_S_)
          (counts (clipIds (m ((c : Thread nD τ).loc main_arg3)))) := by
  show after hostOps2_6 (after hostOps2_5 (after hostOps2_4 (after hostOps2_3 (after hostOps2_2 (after hostOps2_1
    (after hostOps2 (W10 m ρ c))))))) (Proc.devRef .tc main_v59) = _
  simp only [hostOps2, hostOps2_1, hostOps2_2, hostOps2_3, hostOps2_4, hostOps2_5, hostOps2_6]
  after_results_simp
  rw [w10_part, w10_counts, w10_arg m ρ main_arg10 (by simp), w10_arg m ρ main_arg11 (by simp), w10_arg m ρ main_arg12 (by simp),
    w10_arg m ρ main_arg13 (by simp), w10_arg m ρ main_arg14 (by simp), w10_arg m ρ main_arg15 (by simp)]
  rfl

/-- The first result is region 1's first output array: nothing after region 1 writes it. -/
theorem w18_out0 (c : Dev nD) : W18 m ρ c (Proc.devRef .tc main_v33_0) = (dat1 (V9 m ρ) c).arrAt 3 cfg1.N := by
  refine (W18_of_ne m ρ c main_v33_0 (by decide)).trans (Eq.trans ?_ (w10_out0 m ρ c))
  refine Eq.trans (?_ : W17 m ρ c _ = W16 m ρ c _) (Eq.trans (?_ : W16 m ρ c _ = W15 m ρ c _) (Eq.trans (?_ : W15 m ρ c _ = W14 m ρ c _)
    (Eq.trans (?_ : W14 m ρ c _ = W13 m ρ c _) (Eq.trans (?_ : W13 m ρ c _ = W12 m ρ c _) (Eq.trans (?_ : W12 m ρ c _ = W11 m ρ c _)
      (?_ : W11 m ρ c _ = W10 m ρ c _)))))) <;> untouched

/-- The second result is region 2's output array. -/
theorem w18_out1 (c : Dev nD) : W18 m ρ c (Proc.devRef .tc main_v64) = (dat2 (V17 m ρ) c).arrAt 3 cfg2.N := W18_arr m ρ c 3

end Cert.KernelIdeal.Host

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.Spec.lean ====
/-
  Segment sums and gate look-ups through one-hot weights, over the extended reals.

  A row `n` of a matrix carries an integer label `ids n`. The weight `oh a s` is 1 when the label `a` is the
  number `s` and 0 otherwise. Against such weights a contraction over the rows of a tile collects the rows whose
  label is `s` (a segment sum), and a contraction over the 32 labels picks the row `ids n` of a 32-row table (a
  look-up). The rows are laid out in `A` tiles of `T` rows, `N = A * T`: row `n` is position `n % T` of tile `n / T`.
-/
import Idealize.ShloMosaic.PureOps.Ideal
import Idealize.ShloMosaic.Lib.ValueIdx
import Idealize.ShloMosaic.Lib.StableHlo.Predicate
import proofs.«412414_j16080357556866_3_alg».proof.Proof.LibRowOps

noncomputable section

open scoped BigOperators

namespace SegGate

open Idealize.ShloMosaic Idealize.ShloMosaic.ValueIdx

/-- The one-hot weight of label `a` at segment `s`. -/
def oh (a : BitVec 32) (s : ℕ) : EReal := if a = BitVec.ofNat 32 s then 1 else 0

/-! ## Rows in tiles -/

section Tiles

theorem tileRow_lt {A T N : ℕ} (hN : A * T = N) (t : Fin A) (r : Fin T) : T * t.val + r.val < N := by
  have ht := t.isLt
  have hr := r.isLt
  calc T * t.val + r.val < T * t.val + T := by omega
    _ = T * (t.val + 1) := by ring
    _ ≤ T * A := Nat.mul_le_mul_left _ (by omega)
    _ = N := by rw [Nat.mul_comm, hN]

/-- Row `r` of tile `t`. -/
def tileRow {A T N : ℕ} (hN : A * T = N) (t : Fin A) (r : Fin T) : Fin N := ⟨T * t.val + r.val, tileRow_lt hN t r⟩

theorem tile_pos {A T N : ℕ} (hN : A * T = N) (n : Fin N) : 0 < T := by
  rcases Nat.eq_zero_or_pos T with h | h
  · exfalso
    have h0 : N = 0 := by rw [← hN, h, Nat.mul_zero]
    have hn := n.isLt
    omega
  · exact h

theorem tileOf_lt {A T N : ℕ} (hN : A * T = N) (n : Fin N) : n.val / T < A :=
  Nat.div_lt_of_lt_mul (calc n.val < N := n.isLt
    _ = T * A := by rw [← hN, Nat.mul_comm])

/-- The tile a row lies in. -/
def tileOf {A T N : ℕ} (hN : A * T = N) (n : Fin N) : Fin A := ⟨n.val / T, tileOf_lt hN n⟩

/-- A row's position inside its tile. -/
def posOf {A T N : ℕ} (hN : A * T = N) (n : Fin N) : Fin T := ⟨n.val % T, Nat.mod_lt _ (tile_pos hN n)⟩

theorem tileRow_tileOf_posOf {A T N : ℕ} (hN : A * T = N) (n : Fin N) : tileRow hN (tileOf hN n) (posOf hN n) = n :=
  Fin.ext (Nat.div_add_mod n.val T)

theorem tileOf_tileRow {A T N : ℕ} (hN : A * T = N) (t : Fin A) (r : Fin T) : tileOf hN (tileRow hN t r) = t := by
  refine Fin.ext ?_
  show (T * t.val + r.val) / T = t.val
  have hT : 0 < T := Nat.lt_of_le_of_lt (Nat.zero_le _) r.isLt
  rw [Nat.mul_add_div hT, Nat.div_eq_of_lt r.isLt, Nat.add_zero]

theorem posOf_tileRow {A T N : ℕ} (hN : A * T = N) (t : Fin A) (r : Fin T) : posOf hN (tileRow hN t r) = r := by
  refine Fin.ext ?_
  show (T * t.val + r.val) % T = r.val
  rw [Nat.mul_add_mod, Nat.mod_eq_of_lt r.isLt]

/-- Tiles and positions number the rows. -/
def tileEquiv {A T N : ℕ} (hN : A * T = N) : Fin A × Fin T ≃ Fin N where
  toFun p := tileRow hN p.1 p.2
  invFun n := (tileOf hN n, posOf hN n)
  left_inv p := Prod.ext (tileOf_tileRow hN p.1 p.2) (posOf_tileRow hN p.1 p.2)
  right_inv n := tileRow_tileOf_posOf hN n

/-- A sum over tiles and positions is the sum over the rows. -/
theorem sum_tiles {A T N : ℕ} (hN : A * T = N) (f : Fin N → EReal) :
    ∑ t : Fin A, ∑ r : Fin T, f (tileRow hN t r) = ∑ n : Fin N, f n := by
  rw [← Fintype.sum_prod_type' (f := fun t r => f (tileRow hN t r))]
  exact Equiv.sum_comp (tileEquiv hN) f

/-! ## Labels as words -/

/-- A label below 32 is the word of the number `s` exactly when, read signed, it is `s`. -/
theorem eq_ofNat_iff_toInt {a : BitVec 32} (ha : a.toNat < 32) (s : Fin 32) :
    a = BitVec.ofNat 32 s.val ↔ a.toInt = (s.val : Int) := by
  have hs := s.isLt
  have hi : a.toInt = (a.toNat : Int) := StableHlo.Predicate.toInt_eq_toNat_of_lt (by omega)
  constructor
  · intro h
    rw [h, StableHlo.Predicate.toInt_ofNat_small _ (by omega)]
  · intro h
    rw [hi] at h
    have hn : a.toNat = s.val := by exact_mod_cast h
    refine BitVec.eq_of_toNat_eq ?_
    rw [BitVec.toNat_ofNat, hn, Nat.mod_eq_of_lt (by omega)]

/-- The one-hot weight times a value keeps the value at the label and nothing elsewhere. -/
theorem oh_mul (a : BitVec 32) (s : ℕ) (y : EReal) : oh a s * y = if a = BitVec.ofNat 32 s then y else 0 := by
  unfold oh
  split
  · exact one_mul y
  · exact zero_mul y

/-- Contracted over the 32 labels against a table column, the one-hot weights of a label below 32 pick its entry. -/
theorem sum_oh_mul (a : BitVec 32) (ha : a.toNat < 32) (g : Fin 32 → EReal) :
    ∑ s : Fin 32, oh a s.val * g s = g ⟨a.toNat, ha⟩ := by
  rw [Finset.sum_eq_single (⟨a.toNat, ha⟩ : Fin 32)]
  · rw [oh_mul, if_pos]
    exact BitVec.eq_of_toNat_eq (by rw [BitVec.toNat_ofNat, Nat.mod_eq_of_lt a.isLt])
  · intro s _ hs
    rw [oh_mul, if_neg]
    intro h
    refine hs (Fin.ext ?_)
    have := congrArg BitVec.toNat h
    rw [BitVec.toNat_ofNat, Nat.mod_eq_of_lt (by have := s.isLt; omega)] at this
    exact this.symm
  · intro h
    exact absurd (Finset.mem_univ _) h

/-- The row a clamped signed read of a label below 32 names is the label. -/
theorem clampRow_eq {a : BitVec 32} (ha : a.toNat < 32) : RowOps.clampRow 32 (by decide) a = ⟨a.toNat, ha⟩ := by
  refine Fin.ext ?_
  show min a.toInt.toNat (32 - 1) = a.toNat
  rw [StableHlo.Predicate.toInt_eq_toNat_of_lt (by omega), Int.toNat_natCast]
  omega

variable {A T N : ℕ} (hN : A * T = N)

/-- Per tile `t`, segment `s` and column `d`: the sum over the tile's rows of the one-hot weight of the row's label
    times the row's entry. `ids3` holds the labels tile by tile, `[A, 1, T]`. -/
def partSum (C : ℕ) (ids3 : IVec ⟨3, ![A, 1, T]⟩ 32) (x : (⟨2, ![N, C]⟩ : Shape).Idx → EReal) :
    (⟨3, ![A, 32, C]⟩ : Shape).Idx → EReal :=
  fun j => ∑ r : Fin T, oh (ids3 (ix3 (j 0) 0 r)) (j 1).val * x (ix2 (tileRow hN (j 0) r) (j 2))

theorem partSum_apply (C : ℕ) (ids3 : IVec ⟨3, ![A, 1, T]⟩ 32) (x : (⟨2, ![N, C]⟩ : Shape).Idx → EReal)
    (t : Fin A) (s : Fin 32) (d : Fin C) :
    partSum hN C ids3 x (ix3 t s d) = ∑ r : Fin T, oh (ids3 (ix3 t 0 r)) s.val * x (ix2 (tileRow hN t r) d) := rfl

/-- Each entry of `x` times the one-hot contraction of its row's label against the 32-row table `g`. -/
def gated (C : ℕ) (ids3 : IVec ⟨3, ![A, 1, T]⟩ 32) (x : (⟨2, ![N, C]⟩ : Shape).Idx → EReal)
    (g : (⟨2, ![32, C]⟩ : Shape).Idx → EReal) : (⟨2, ![N, C]⟩ : Shape).Idx → EReal :=
  fun i => x i * ∑ s : Fin 32, oh (ids3 (ix3 (tileOf hN (i 0)) 0 (posOf hN (i 0)))) s.val * g (ix2 s (i 1))

theorem gated_apply (C : ℕ) (ids3 : IVec ⟨3, ![A, 1, T]⟩ 32) (x : (⟨2, ![N, C]⟩ : Shape).Idx → EReal)
    (g : (⟨2, ![32, C]⟩ : Shape).Idx → EReal) (n : Fin N) (d : Fin C) :
    gated hN C ids3 x g (ix2 n d)
      = x (ix2 n d) * ∑ s : Fin 32, oh (ids3 (ix3 (tileOf hN n) 0 (posOf hN n))) s.val * g (ix2 s d) := rfl

/-! ## The two laws: labels in range -/

/-- Summed over the tiles, the partial sums of segment `s` are the sum of the rows whose label, read signed, is `s`. -/
theorem sum_partSum_eq_filter (C : ℕ) (ids3 : IVec ⟨3, ![A, 1, T]⟩ 32) (ids : Fin N → BitVec 32)
    (hids : ∀ t r, ids3 (ix3 t 0 r) = ids (tileRow hN t r)) (hB : ∀ n, (ids n).toNat < 32)
    (x : (⟨2, ![N, C]⟩ : Shape).Idx → EReal) (s : Fin 32) (d : Fin C) :
    ∑ t : Fin A, partSum hN C ids3 x (ix3 t s d)
      = ∑ n ∈ Finset.univ.filter (fun n : Fin N => (ids n).toInt = (s.val : Int)), x (ix2 n d) := by
  have h1 : ∀ t : Fin A, partSum hN C ids3 x (ix3 t s d)
      = ∑ r : Fin T, (fun n : Fin N => oh (ids n) s.val * x (ix2 n d)) (tileRow hN t r) := fun t => by
    rw [partSum_apply]
    exact Finset.sum_congr rfl fun r _ => by rw [hids t r]
  calc ∑ t : Fin A, partSum hN C ids3 x (ix3 t s d)
      = ∑ t : Fin A, ∑ r : Fin T, (fun n : Fin N => oh (ids n) s.val * x (ix2 n d)) (tileRow hN t r) :=
        Finset.sum_congr rfl fun t _ => h1 t
    _ = ∑ n : Fin N, oh (ids n) s.val * x (ix2 n d) :=
        sum_tiles hN (fun n : Fin N => oh (ids n) s.val * x (ix2 n d))
    _ = _ := by
        rw [Finset.sum_filter]
        refine Finset.sum_congr rfl fun n _ => ?_
        rw [oh_mul]
        exact if_congr (eq_ofNat_iff_toInt (hB n) s) rfl rfl

/-- With labels in range the one-hot contraction against the table is the table's row at the label (the row a clamped
    signed read of the label names). -/
theorem gated_eq_row (C : ℕ) (ids3 : IVec ⟨3, ![A, 1, T]⟩ 32) (ids : Fin N → BitVec 32)
    (hids : ∀ t r, ids3 (ix3 t 0 r) = ids (tileRow hN t r)) (hB : ∀ n, (ids n).toNat < 32)
    (x : (⟨2, ![N, C]⟩ : Shape).Idx → EReal) (g : (⟨2, ![32, C]⟩ : Shape).Idx → EReal) (n : Fin N) (d : Fin C) :
    gated hN C ids3 x g (ix2 n d) = x (ix2 n d) * g (ix2 (RowOps.clampRow 32 (by decide) (ids n)) d) := by
  rw [gated_apply, hids, tileRow_tileOf_posOf, clampRow_eq (hB n)]
  exact congrArg (x (ix2 n d) * ·) (sum_oh_mul (ids n) (hB n) fun s => g (ix2 s d))

end Tiles

end SegGate

end
-- ==== Proof.KernelOneHot.lean ====
/-
  The one-hot matrix a kernel body builds from a row of labels, read at an index.

  The body compares the row of labels, broadcast down 32 rows, with the row number, widens the one-bit answer to a
  word and converts it to a float: entry `(s, r)` is 1 when label `r` is the number `s`, and 0 otherwise.
-/
import Idealize.ShloMosaic.Lib.Pipeline.Value
import Idealize.ShloMosaic.Lib.KernelVsHost
import Idealize.ShloMosaic.Lib.StableHlo.Predicate
import proofs.«412414_j16080357556866_3_alg».proof.Proof.Spec

noncomputable section

namespace SegGate

open Idealize.ShloMosaic Idealize.ShloMosaic.ValueIdx

/-- The widened, converted bit of a comparison is the one-hot weight. -/
theorem bit_weight (a : BitVec 32) (s : ℕ) :
    ((((IntOp.cmpi .eq a (BitVec.ofNat 32 s)).setWidth 32).toInt : ℝ) : EReal) = oh a s := by
  rw [toInt_setWidth_bit]
  unfold oh
  by_cases h : a = BitVec.ofNat 32 s
  · rw [if_pos h, StableHlo.Predicate.cmpi_eq_iff.mpr h]
    norm_num
  · rw [if_neg h, eq_zero_of_ne_one (fun e => h (StableHlo.Predicate.cmpi_eq_iff.mp e))]
    norm_num

/-- Entry `(s, r)` of the body's one-hot matrix over a tile of `T` labels. -/
theorem onehot_apply {T : ℕ} (x0 : IVec ⟨3, ![1, 1, T]⟩ 32)
    (hsc : (⟨3, ![1, 1, T]⟩ : Shape).ShapeCasts ⟨2, ![1, T]⟩) (hbc : (⟨2, ![1, T]⟩ : Shape).Broadcasts ⟨2, ![32, T]⟩)
    (hio : (⟨2, ![32, T]⟩ : Shape).Iotas .tc 32 [0]) (hlt : 1 < 32) (s : Fin 32) (r : Fin T) :
    (sitofp .f32 (extui 32 (cmpi .eq (broadcastTo ⟨2, ![32, T]⟩ (shapeCast ⟨2, ![1, T]⟩ x0 hsc) hbc)
        (iota .tc ⟨2, ![32, T]⟩ 32 [0] hio)) hlt) : FVec Ideal ⟨2, ![32, T]⟩ .f32) (ix2 s r)
      = oh (x0 (ix3 0 0 r)) s.val := by
  have hb : broadcastTo ⟨2, ![32, T]⟩ (shapeCast ⟨2, ![1, T]⟩ x0 hsc) hbc (ix2 s r)
      = shapeCast ⟨2, ![1, T]⟩ x0 hsc (ix2 0 r) := by
    refine broadcastTo_apply _ hbc (ix2 s r) (ix2 0 r) fun a => ?_
    match a with
    | ⟨0, _⟩ => rfl
    | ⟨1, _⟩ =>
      show r.val = if T = 1 then 0 else r.val
      split
      · have := r.isLt; omega
      · rfl
  have hs : shapeCast ⟨2, ![1, T]⟩ x0 hsc (ix2 0 r) = x0 (ix3 0 0 r) := by
    refine (shapeCast_dropUnit_apply ![1, T] x0 hsc (ix2 0 r)).trans (congrArg x0 ?_)
    funext a
    match a with
    | ⟨0, _⟩ => rfl
    | ⟨1, _⟩ => rfl
    | ⟨2, _⟩ => rfl
  have hi : iota .tc ⟨2, ![32, T]⟩ 32 [0] hio (ix2 s r) = BitVec.ofNat 32 s.val :=
    iota_single_apply .tc ⟨2, ![32, T]⟩ 32 0 hio (ix2 s r)
  show ((((IntOp.cmpi .eq (broadcastTo ⟨2, ![32, T]⟩ (shapeCast ⟨2, ![1, T]⟩ x0 hsc) hbc (ix2 s r))
      (iota .tc ⟨2, ![32, T]⟩ 32 [0] hio (ix2 s r))).setWidth 32).toInt : ℝ) : EReal) = _
  rw [hb, hs, hi]
  exact bit_weight _ _

end SegGate

end
-- ==== Proof.KernelGated.lean ====
/-
  The look-up products of regions 1 and 2, as whole-array functions of the arrays each region finds.

  Each body multiplies a tile of rows by the one-hot contraction of the tile's labels against the 32-row gate table:
  row `r` of the product is row `r` of the tile times the table's row at label `r`. Read back block by block, the
  output array is `SegGate.gated` of the label array, the row array and the table.
-/
import proofs.«412414_j16080357556866_3_alg».proof.Proof.Gen.KernelIdeal.Frame
import proofs.«412414_j16080357556866_3_alg».proof.Proof.KernelOneHot
import Idealize.ShloMosaic.PureOps.Ideal.Laws
import Idealize.ShloMosaic.Lib.ValueLayout

set_option maxRecDepth 16384

noncomputable section

namespace Cert.KernelIdeal.Gated

open Cert.KernelIdeal.Gen
open Idealize.ShloMosaic Idealize.ShloMosaic.TcCoe Idealize.ShloMosaic.ValueIdx
open Idealize.SL.Sem
open Idealize.ShloMosaic.Pipeline (Dat Cfg Window)

/-! ## The payloads at an index -/

/-- The look-up contraction of region 1 reads the one-hot matrix at (contraction index, output row). -/
theorem lhs_gate5_0 (i : S5000x128.Idx) (q : dot_S32x5000_S32x128_S5000x128_0_0_1_1_n_n.contr.Idx) :
    (dot_S32x5000_S32x128_S5000x128_0_0_1_1_n_n.lhsIdx i q 0).val = (q ⟨0, by decide⟩).val :=
  dot_S32x5000_S32x128_S5000x128_0_0_1_1_n_n.lhsIdx_val_of_single rfl i q
theorem lhs_gate5_1 (i : S5000x128.Idx) (q : dot_S32x5000_S32x128_S5000x128_0_0_1_1_n_n.contr.Idx) :
    (dot_S32x5000_S32x128_S5000x128_0_0_1_1_n_n.lhsIdx i q 1).val = (i 0).val := by
  unfold DotDims.lhsIdx
  rw [dif_neg (show ¬(1 : Fin S32x5000.rank) ∈ dot_S32x5000_S32x128_S5000x128_0_0_1_1_n_n.lhsBatch by decide), dif_pos (show (1 : Fin S32x5000.rank) ∈ dot_S32x5000_S32x128_S5000x128_0_0_1_1_n_n.lhsNonContracting by decide)]
  rfl
/-- … and the table at (contraction index, output column). -/
theorem rhs_gate5_0 (i : S5000x128.Idx) (q : dot_S32x5000_S32x128_S5000x128_0_0_1_1_n_n.contr.Idx) :
    (dot_S32x5000_S32x128_S5000x128_0_0_1_1_n_n.rhsIdx i q 0).val = (q ⟨0, by decide⟩).val :=
  dot_S32x5000_S32x128_S5000x128_0_0_1_1_n_n.rhsIdx_val_of_single rfl i q
theorem rhs_gate5_1 (i : S5000x128.Idx) (q : dot_S32x5000_S32x128_S5000x128_0_0_1_1_n_n.contr.Idx) :
    (dot_S32x5000_S32x128_S5000x128_0_0_1_1_n_n.rhsIdx i q 1).val = (i 1).val := by
  unfold DotDims.rhsIdx
  rw [dif_neg (show ¬(1 : Fin S32x128.rank) ∈ dot_S32x5000_S32x128_S5000x128_0_0_1_1_n_n.rhsBatch by decide), dif_pos (show (1 : Fin S32x128.rank) ∈ dot_S32x5000_S32x128_S5000x128_0_0_1_1_n_n.rhsNonContracting by decide)]
  rfl

/-- Region 1's look-up contraction into the zero splat, at row `r`, column `d`: the sum over the 32 labels. -/
theorem gate5_matmul (y : FVec Ideal S32x5000 .f32) (g : FVec Ideal S32x128 .f32) (r : Fin 5000) (d : Fin 128) :
    matmul dot_S32x5000_S32x128_S5000x128_0_0_1_1_n_n (some .fp32) y g (constant S5000x128 .f32 0x00000000#32) (ix2 r d)
      = ∑ s : Fin 32, y (ix2 s r) * g (ix2 s d) := by
  refine (Ideal.matmul_constant_zero_apply dot_S32x5000_S32x128_S5000x128_0_0_1_1_n_n (some .fp32) y g (ix2 r d)).trans ?_
  rw [← Equiv.sum_comp (ValueIdx.contrEquiv1 dot_S32x5000_S32x128_S5000x128_0_0_1_1_n_n 32 rfl rfl).symm]
  refine Finset.sum_congr rfl fun k _ => ?_
  have hk := ValueIdx.contrEquiv1_symm_val dot_S32x5000_S32x128_S5000x128_0_0_1_1_n_n 32 rfl rfl k
  have el : dot_S32x5000_S32x128_S5000x128_0_0_1_1_n_n.lhsIdx (ix2 r d) ((ValueIdx.contrEquiv1 dot_S32x5000_S32x128_S5000x128_0_0_1_1_n_n 32 rfl rfl).symm k) = ix2 k r := funext fun a => Fin.ext (by
    match a with
    | ⟨0, _⟩ => exact (lhs_gate5_0 _ _).trans hk
    | ⟨1, _⟩ => exact lhs_gate5_1 _ _)
  have er : dot_S32x5000_S32x128_S5000x128_0_0_1_1_n_n.rhsIdx (ix2 r d) ((ValueIdx.contrEquiv1 dot_S32x5000_S32x128_S5000x128_0_0_1_1_n_n 32 rfl rfl).symm k) = ix2 k d := funext fun a => Fin.ext (by
    match a with
    | ⟨0, _⟩ => exact (rhs_gate5_0 _ _).trans hk
    | ⟨1, _⟩ => exact rhs_gate5_1 _ _)
  rw [el, er]

/-- Region 1's product payload at row `r`, column `d` of a tile. -/
theorem k1_pay2_apply (x0 : Vec Ideal S1x1x5000 .i32) (x1 : Vec Ideal S5000x128 .f32) (x2 : Vec Ideal S32x128 .f32)
    (r : Fin 5000) (d : Fin 128) :
    k1_pay2 (F := Ideal) x0 x1 x2 (ix2 r d)
      = x1 (ix2 r d) * ∑ s : Fin 32, SegGate.oh (x0 (ix3 0 0 r)) s.val * x2 (ix2 s d) := by
  unfold k1_pay2
  refine (mulf_apply _ _ _).trans (congrArg (x1 (ix2 r d) * ·) ?_)
  refine (gate5_matmul _ _ r d).trans (Finset.sum_congr rfl fun s _ => ?_)
  refine congrArg₂ (· * ·) ?_ ?_
  · unfold k1_pay1
    exact SegGate.onehot_apply x0 shapeCasts_S1x1x5000_S1x5000 broadcasts_S1x5000_S32x5000 iota_S32x5000_d0_w32 natLt_1_32 s r
  · exact congrFun (shapeCast_self x2 shapeCasts_S32x128_S32x128) (ix2 s d)

/-- The look-up contraction of region 2 reads the one-hot matrix at (contraction index, output row). -/
theorem lhs_gate10_0 (i : S10000x128.Idx) (q : dot_S32x10000_S32x128_S10000x128_0_0_1_1_n_n.contr.Idx) :
    (dot_S32x10000_S32x128_S10000x128_0_0_1_1_n_n.lhsIdx i q 0).val = (q ⟨0, by decide⟩).val :=
  dot_S32x10000_S32x128_S10000x128_0_0_1_1_n_n.lhsIdx_val_of_single rfl i q
theorem lhs_gate10_1 (i : S10000x128.Idx) (q : dot_S32x10000_S32x128_S10000x128_0_0_1_1_n_n.contr.Idx) :
    (dot_S32x10000_S32x128_S10000x128_0_0_1_1_n_n.lhsIdx i q 1).val = (i 0).val := by
  unfold DotDims.lhsIdx
  rw [dif_neg (show ¬(1 : Fin S32x10000.rank) ∈ dot_S32x10000_S32x128_S10000x128_0_0_1_1_n_n.lhsBatch by decide), dif_pos (show (1 : Fin S32x10000.rank) ∈ dot_S32x10000_S32x128_S10000x128_0_0_1_1_n_n.lhsNonContracting by decide)]
  rfl
/-- … and the table at (contraction index, output column). -/
theorem rhs_gate10_0 (i : S10000x128.Idx) (q : dot_S32x10000_S32x128_S10000x128_0_0_1_1_n_n.contr.Idx) :
    (dot_S32x10000_S32x128_S10000x128_0_0_1_1_n_n.rhsIdx i q 0).val = (q ⟨0, by decide⟩).val :=
  dot_S32x10000_S32x128_S10000x128_0_0_1_1_n_n.rhsIdx_val_of_single rfl i q
theorem rhs_gate10_1 (i : S10000x128.Idx) (q : dot_S32x10000_S32x128_S10000x128_0_0_1_1_n_n.contr.Idx) :
    (dot_S32x10000_S32x128_S10000x128_0_0_1_1_n_n.rhsIdx i q 1).val = (i 1).val := by
  unfold DotDims.rhsIdx
  rw [dif_neg (show ¬(1 : Fin S32x128.rank) ∈ dot_S32x10000_S32x128_S10000x128_0_0_1_1_n_n.rhsBatch by decide), dif_pos (show (1 : Fin S32x128.rank) ∈ dot_S32x10000_S32x128_S10000x128_0_0_1_1_n_n.rhsNonContracting by decide)]
  rfl

/-- Region 2's look-up contraction into the zero splat, at row `r`, column `d`: the sum over the 32 labels. -/
theorem gate10_matmul (y : FVec Ideal S32x10000 .f32) (g : FVec Ideal S32x128 .f32) (r : Fin 10000) (d : Fin 128) :
    matmul dot_S32x10000_S32x128_S10000x128_0_0_1_1_n_n (some .fp32) y g (constant S10000x128 .f32 0x00000000#32) (ix2 r d)
      = ∑ s : Fin 32, y (ix2 s r) * g (ix2 s d) := by
  refine (Ideal.matmul_constant_zero_apply dot_S32x10000_S32x128_S10000x128_0_0_1_1_n_n (some .fp32) y g (ix2 r d)).trans ?_
  rw [← Equiv.sum_comp (ValueIdx.contrEquiv1 dot_S32x10000_S32x128_S10000x128_0_0_1_1_n_n 32 rfl rfl).symm]
  refine Finset.sum_congr rfl fun k _ => ?_
  have hk := ValueIdx.contrEquiv1_symm_val dot_S32x10000_S32x128_S10000x128_0_0_1_1_n_n 32 rfl rfl k
  have el : dot_S32x10000_S32x128_S10000x128_0_0_1_1_n_n.lhsIdx (ix2 r d) ((ValueIdx.contrEquiv1 dot_S32x10000_S32x128_S10000x128_0_0_1_1_n_n 32 rfl rfl).symm k) = ix2 k r := funext fun a => Fin.ext (by
    match a with
    | ⟨0, _⟩ => exact (lhs_gate10_0 _ _).trans hk
    | ⟨1, _⟩ => exact lhs_gate10_1 _ _)
  have er : dot_S32x10000_S32x128_S10000x128_0_0_1_1_n_n.rhsIdx (ix2 r d) ((ValueIdx.contrEquiv1 dot_S32x10000_S32x128_S10000x128_0_0_1_1_n_n 32 rfl rfl).symm k) = ix2 k d := funext fun a => Fin.ext (by
    match a with
    | ⟨0, _⟩ => exact (rhs_gate10_0 _ _).trans hk
    | ⟨1, _⟩ => exact rhs_gate10_1 _ _)
  rw [el, er]

/-- Region 2's product payload at row `r`, column `d` of a tile. -/
theorem k2_pay1_apply (x0 : Vec Ideal S1x1x10000 .i32) (x1 : Vec Ideal S10000x128 .f32) (x2 : Vec Ideal S32x128 .f32)
    (r : Fin 10000) (d : Fin 128) :
    k2_pay1 (F := Ideal) x0 x1 x2 (ix2 r d)
      = x1 (ix2 r d) * ∑ s : Fin 32, SegGate.oh (x0 (ix3 0 0 r)) s.val * x2 (ix2 s d) := by
  unfold k2_pay1
  refine (mulf_apply _ _ _).trans (congrArg (x1 (ix2 r d) * ·) ?_)
  refine (gate10_matmul _ _ r d).trans (Finset.sum_congr rfl fun s _ => ?_)
  refine congrArg₂ (· * ·) ?_ ?_
  · exact SegGate.onehot_apply x0 shapeCasts_S1x1x10000_S1x10000 broadcasts_S1x10000_S32x10000 iota_S32x10000_d0_w32 natLt_1_32 s r
  · exact congrFun (shapeCast_self x2 shapeCasts_S32x128_S32x128) (ix2 s d)

/-! ## The arrays -/

variable (V : (c : Dev nD) → (b : Ref sig .tc) → Buf (Elt Ideal) ((c : Thread nD τ).loc b))

/-! ### Region 1 -/

theorem hz2 : (![0, 0] : Fin 2 → Nat) = fun _ => 0 := funext fun a => by fin_cases a <;> rfl
theorem hz3 : (![0, 0, 0] : Fin 3 → Nat) = fun _ => 0 := funext fun a => by fin_cases a <;> rfl

/-- Region 1's index maps over its 20 points: point `t` names block `t` on the tile (resp. row) axis, block 0 elsewhere;
    the table's one block is the whole table. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A point of region 1 as a tile number. -/
def pt1 (t : Fin cfg1.N) : Fin 20 := ⟨t.val, lt_of_lt_of_eq t.isLt N_1⟩

/-- The labels' block at point `t` is tile `t` of the label array. -/
theorem iblk1_0_apply (c : Dev nD) (t : Fin cfg1.N) (r : Fin 5000) :
    (iblk1 (F := Ideal) V c 0 t : Vec Ideal S1x1x5000 .i32) (ix3 0 0 r)
      = (V c main_v1 : IVec ⟨3, ![20, 1, 5000]⟩ 32) (ix3 (pt1 t) 0 r) := by
  obtain ⟨e0, e1, e2, -⟩ := idx_facts1 t
  unfold iblk1
  rw [View.read_apply]
  show V c main_v1 _ = V c main_v1 _
  congr 1
  funext a
  apply Fin.ext
  match a with
  | ⟨0, _⟩ => show win1_0.index t (0 : Fin 3) * 1 + 1 * 0 = t.val; omega
  | ⟨1, _⟩ => show win1_0.index t (1 : Fin 3) * 1 + 1 * 0 = 0; omega
  | ⟨2, _⟩ => show win1_0.index t (2 : Fin 3) * 5000 + 1 * r.val = r.val; omega

/-- The rows' block at point `t` is rows `5000 t …` of the row array. -/
theorem iblk1_1_apply (c : Dev nD) (t : Fin cfg1.N) (r : Fin 5000) (d : Fin 128) :
    (iblk1 (F := Ideal) V c 1 t : Vec Ideal S5000x128 .f32) (ix2 r d)
      = (V c main_arg0 : (⟨2, ![100000, 128]⟩ : Shape).Idx → EReal)
          (ix2 (SegGate.tileRow (A := 20) (T := 5000) (N := 100000) rfl (pt1 t) r) d) := by
  obtain ⟨-, -, -, e0, e1, -⟩ := idx_facts1 t
  unfold iblk1
  rw [View.read_apply]
  show V c main_arg0 _ = V c main_arg0 _
  congr 1
  funext a
  apply Fin.ext
  match a with
  | ⟨0, _⟩ => show win1_1.index t (0 : Fin 2) * 5000 + 1 * r.val = 5000 * t.val + r.val; omega
  | ⟨1, _⟩ => show win1_1.index t (1 : Fin 2) * 128 + 1 * d.val = d.val; omega

/-- The table's block at every point is the whole table. -/
theorem iblk1_2_apply (c : Dev nD) (t : Fin cfg1.N) (s : Fin 32) (d : Fin 128) :
    (iblk1 (F := Ideal) V c 2 t : Vec Ideal S32x128 .f32) (ix2 s d)
      = (V c main_v32 : (⟨2, ![32, 128]⟩ : Shape).Idx → EReal) (ix2 s d) := by
  obtain ⟨-, -, -, -, -, e0, e1, -⟩ := idx_facts1 t
  unfold iblk1
  rw [View.read_apply]
  show V c main_v32 _ = V c main_v32 _
  congr 1
  funext a
  apply Fin.ext
  match a with
  | ⟨0, _⟩ => show win1_2.index t (0 : Fin 2) * 32 + 1 * s.val = s.val; omega
  | ⟨1, _⟩ => show win1_2.index t (1 : Fin 2) * 128 + 1 * d.val = d.val; omega

/-- What point `t` of region 1 writes back to the product array is block `t` of the gated rows. -/
theorem flushed1_3_eq (c : Dev nD) (t : Fin cfg1.N) :
    (dat1 (F := Ideal) V c).flushed 3 t = ((cfg1.win 3).blk t).view.read (Elt Ideal)
      (SegGate.gated (A := 20) (T := 5000) (N := 100000) rfl 128 (V c main_v1) (V c main_arg0) (V c main_v32)) := by
  show (cfg1.win 3).cut (grid1.coords t) ((dat1 (F := Ideal) V c).after 3 t) = _
  rw [after1_3]
  unfold out1_3
  rw [View.canon_unit_zero hz2]
  simp only [View.ld_unit_zero (S := S5000x128) hz2, View.ld_unit_zero (S := S1x1x5000) hz3, View.ld_unit_zero (S := S32x128) hz2]
  funext j
  obtain ⟨r, d, rfl⟩ : ∃ (r : Fin 5000) (d : Fin 128), j = ix2 r d := ⟨j 0, j 1, eq_ix2 j⟩
  obtain ⟨-, -, -, -, -, -, -, e0, e1⟩ := idx_facts1 t
  have hemb : ((cfg1.win 3).blk t).view.emb (ix2 r d)
      = ix2 (SegGate.tileRow (A := 20) (T := 5000) (N := 100000) rfl (pt1 t) r) d := by
    funext a
    apply Fin.ext
    match a with
    | ⟨0, _⟩ => show win1_3.index t (0 : Fin 2) * 5000 + 1 * r.val = 5000 * t.val + r.val; omega
    | ⟨1, _⟩ => show win1_3.index t (1 : Fin 2) * 128 + 1 * d.val = d.val; omega
  show k1_pay2 (F := Ideal) (iblk1 V c 0 t) (iblk1 V c 1 t) (iblk1 V c 2 t) (ix2 r d)
    = SegGate.gated (A := 20) (T := 5000) (N := 100000) rfl 128 (V c main_v1) (V c main_arg0) (V c main_v32)
        (((cfg1.win 3).blk t).view.emb (ix2 r d))
  rw [hemb, SegGate.gated_apply, SegGate.tileOf_tileRow, SegGate.posOf_tileRow]
  refine (k1_pay2_apply _ _ _ r d).trans ?_
  refine congrArg₂ (· * ·) (iblk1_1_apply V c t r d) (Finset.sum_congr rfl fun s _ => ?_)
  exact congrArg₂ (· * ·) (congrArg (SegGate.oh · s.val) (iblk1_0_apply V c t r)) (iblk1_2_apply V c t s d)

/-- A row of the product array is in point `t`'s block iff each coordinate is in the block's range on its axis. -/
theorem mem_blk1_3 (t : Fin cfg1.N) (i : S100000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v33_0).slice (win1_3.rect t)).set ↔ _
  rw [View.set_slice_whole, Rect.mem_set_unit]
  exact Iff.rfl

/-- Every row of the product array is in the block of the point numbered by the row's tile. -/
theorem covered1_3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, e0, e1⟩ := idx_facts1 t
  refine ⟨t, flush1_3 t, ?_⟩
  rw [mem_blk1_3]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- Region 1's first output array: each row of `dst_na` times its label's row of the gate table. -/
theorem arr1_3 (c : Dev nD) :
    (dat1 (F := Ideal) V c).arrAt 3 cfg1.N
      = SegGate.gated (A := 20) (T := 5000) (N := 100000) rfl 128 (V c main_v1) (V c main_arg0) (V c main_v32) :=
  (dat1 (F := Ideal) V c).arrAt_eq_of_cover 3
    (SegGate.gated (A := 20) (T := 5000) (N := 100000) rfl 128 (V c main_v1) (V c main_arg0) (V c main_v32))
    (fun t _ => flushed1_3_eq V c t) covered1_3

/-! ### Region 2 -/

/-- Region 2's index maps over its 60 points: point `t` names block `t` on the tile (resp. row) axis, block 0 elsewhere;
    the table's one block is the whole table. -/
theorem idx_facts2 : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A point of region 2 as a tile number. -/
def pt2 (t : Fin cfg2.N) : Fin 60 := ⟨t.val, lt_of_lt_of_eq t.isLt N_2⟩

/-- The labels' block at point `t` is tile `t` of the label array. -/
theorem iblk2_0_apply (c : Dev nD) (t : Fin cfg2.N) (r : Fin 10000) :
    (iblk2 (F := Ideal) V c 0 t : Vec Ideal S1x1x10000 .i32) (ix3 0 0 r)
      = (V c main_v63 : IVec ⟨3, ![60, 1, 10000]⟩ 32) (ix3 (pt2 t) 0 r) := by
  obtain ⟨e0, e1, e2, -⟩ := idx_facts2 t
  unfold iblk2
  rw [View.read_apply]
  show V c main_v63 _ = V c main_v63 _
  congr 1
  funext a
  apply Fin.ext
  match a with
  | ⟨0, _⟩ => show win2_0.index t (0 : Fin 3) * 1 + 1 * 0 = t.val; omega
  | ⟨1, _⟩ => show win2_0.index t (1 : Fin 3) * 1 + 1 * 0 = 0; omega
  | ⟨2, _⟩ => show win2_0.index t (2 : Fin 3) * 10000 + 1 * r.val = r.val; omega

/-- The rows' block at point `t` is rows `10000 t …` of the row array. -/
theorem iblk2_1_apply (c : Dev nD) (t : Fin cfg2.N) (r : Fin 10000) (d : Fin 128) :
    (iblk2 (F := Ideal) V c 1 t : Vec Ideal S10000x128 .f32) (ix2 r d)
      = (V c main_arg1 : (⟨2, ![600000, 128]⟩ : Shape).Idx → EReal)
          (ix2 (SegGate.tileRow (A := 60) (T := 10000) (N := 600000) rfl (pt2 t) r) d) := by
  obtain ⟨-, -, -, e0, e1, -⟩ := idx_facts2 t
  unfold iblk2
  rw [View.read_apply]
  show V c main_arg1 _ = V c main_arg1 _
  congr 1
  funext a
  apply Fin.ext
  match a with
  | ⟨0, _⟩ => show win2_1.index t (0 : Fin 2) * 10000 + 1 * r.val = 10000 * t.val + r.val; omega
  | ⟨1, _⟩ => show win2_1.index t (1 : Fin 2) * 128 + 1 * d.val = d.val; omega

/-- The table's block at every point is the whole table. -/
theorem iblk2_2_apply (c : Dev nD) (t : Fin cfg2.N) (s : Fin 32) (d : Fin 128) :
    (iblk2 (F := Ideal) V c 2 t : Vec Ideal S32x128 .f32) (ix2 s d)
      = (V c main_v59 : (⟨2, ![32, 128]⟩ : Shape).Idx → EReal) (ix2 s d) := by
  obtain ⟨-, -, -, -, -, e0, e1, -⟩ := idx_facts2 t
  unfold iblk2
  rw [View.read_apply]
  show V c main_v59 _ = V c main_v59 _
  congr 1
  funext a
  apply Fin.ext
  match a with
  | ⟨0, _⟩ => show win2_2.index t (0 : Fin 2) * 32 + 1 * s.val = s.val; omega
  | ⟨1, _⟩ => show win2_2.index t (1 : Fin 2) * 128 + 1 * d.val = d.val; omega

/-- What point `t` of region 2 writes back to the product array is block `t` of the gated rows. -/
theorem flushed2_3_eq (c : Dev nD) (t : Fin cfg2.N) :
    (dat2 (F := Ideal) V c).flushed 3 t = ((cfg2.win 3).blk t).view.read (Elt Ideal)
      (SegGate.gated (A := 60) (T := 10000) (N := 600000) rfl 128 (V c main_v63) (V c main_arg1) (V c main_v59)) := by
  show (cfg2.win 3).cut (grid2.coords t) ((dat2 (F := Ideal) V c).after 3 t) = _
  rw [after2_3]
  unfold out2_3
  rw [View.canon_unit_zero hz2]
  simp only [View.ld_unit_zero (S := S10000x128) hz2, View.ld_unit_zero (S := S1x1x10000) hz3, View.ld_unit_zero (S := S32x128) hz2]
  funext j
  obtain ⟨r, d, rfl⟩ : ∃ (r : Fin 10000) (d : Fin 128), j = ix2 r d := ⟨j 0, j 1, eq_ix2 j⟩
  obtain ⟨-, -, -, -, -, -, -, e0, e1⟩ := idx_facts2 t
  have hemb : ((cfg2.win 3).blk t).view.emb (ix2 r d)
      = ix2 (SegGate.tileRow (A := 60) (T := 10000) (N := 600000) rfl (pt2 t) r) d := by
    funext a
    apply Fin.ext
    match a with
    | ⟨0, _⟩ => show win2_3.index t (0 : Fin 2) * 10000 + 1 * r.val = 10000 * t.val + r.val; omega
    | ⟨1, _⟩ => show win2_3.index t (1 : Fin 2) * 128 + 1 * d.val = d.val; omega
  show k2_pay1 (F := Ideal) (iblk2 V c 0 t) (iblk2 V c 1 t) (iblk2 V c 2 t) (ix2 r d)
    = SegGate.gated (A := 60) (T := 10000) (N := 600000) rfl 128 (V c main_v63) (V c main_arg1) (V c main_v59)
        (((cfg2.win 3).blk t).view.emb (ix2 r d))
  rw [hemb, SegGate.gated_apply, SegGate.tileOf_tileRow, SegGate.posOf_tileRow]
  refine (k2_pay1_apply _ _ _ r d).trans ?_
  refine congrArg₂ (· * ·) (iblk2_1_apply V c t r d) (Finset.sum_congr rfl fun s _ => ?_)
  exact congrArg₂ (· * ·) (congrArg (SegGate.oh · s.val) (iblk2_0_apply V c t r)) (iblk2_2_apply V c t s d)

/-- A row of the product array is in point `t`'s block iff each coordinate is in the block's range on its axis. -/
theorem mem_blk2_3 (t : Fin cfg2.N) (i : S600000x128.Idx) :
    i ∈ ((cfg2.win 3).blk t).view.set
      ↔ ∀ a : Fin 2, win2_3.index t a * S10000x128.size a ≤ (i a).val
          ∧ (i a).val < win2_3.index t a * S10000x128.size a + S10000x128.size a := by
  show i ∈ ((View.whole main_v64).slice (win2_3.rect t)).set ↔ _
  rw [View.set_slice_whole, Rect.mem_set_unit]
  exact Iff.rfl

/-- Every row of the product array is in the block of the point numbered by the row's tile. -/
theorem covered2_3 (i : S600000x128.Idx) :
    ∃ t : Fin cfg2.N, (cfg2.win 3).flush t = true ∧ i ∈ ((cfg2.win 3).blk t).view.set := by
  have hi0 : (i 0).val < 600000 := (i 0).isLt
  have hi1 : (i 1).val < 128 := (i 1).isLt
  obtain ⟨t, ht⟩ : ∃ t : Fin cfg2.N, t.val = (i 0).val / 10000 :=
    ⟨⟨(i 0).val / 10000, by rw [show cfg2.N = 60 from N_2]; omega⟩, rfl⟩
  obtain ⟨-, -, -, -, -, -, -, e0, e1⟩ := idx_facts2 t
  refine ⟨t, flush2_3 t, ?_⟩
  rw [mem_blk2_3]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 128 ≤ (i 1).val ∧ (i 1).val < win2_3.index t (1 : Fin 2) * 128 + 128
    omega

/-- Region 2's output array: each row of `ea` times its label's row of the edge gate table. -/
theorem arr2_3 (c : Dev nD) :
    (dat2 (F := Ideal) V c).arrAt 3 cfg2.N
      = SegGate.gated (A := 60) (T := 10000) (N := 600000) rfl 128 (V c main_v63) (V c main_arg1) (V c main_v59) :=
  (dat2 (F := Ideal) V c).arrAt_eq_of_cover 3
    (SegGate.gated (A := 60) (T := 10000) (N := 600000) rfl 128 (V c main_v63) (V c main_arg1) (V c main_v59))
    (fun t _ => flushed2_3_eq V c t) covered2_3

end Cert.KernelIdeal.Gated

end
-- ==== Proof.KernelSums.lean ====
/-
  The per-tile segment sums of regions 0 and 1, as whole-array functions of the arrays each region finds.

  Each body contracts the one-hot matrix of a tile's labels with the tile's rows: entry `(s, d)` of the result is
  the sum of column `d` over the tile's rows whose label is `s`. Region 0 sums the rows of `dst_na`; region 1 sums
  the rows it has just multiplied by the gate. Read back block by block, the output array is `SegGate.partSum`.
-/
import proofs.«412414_j16080357556866_3_alg».proof.Proof.Gen.KernelIdeal.Frame
import proofs.«412414_j16080357556866_3_alg».proof.Proof.KernelOneHot
import proofs.«412414_j16080357556866_3_alg».proof.Proof.KernelGated
import Idealize.ShloMosaic.PureOps.Ideal.Laws
import Idealize.ShloMosaic.Lib.ValueLayout

set_option maxRecDepth 16384

noncomputable section

namespace Cert.KernelIdeal.Sums

open Cert.KernelIdeal.Gen
open Idealize.ShloMosaic Idealize.ShloMosaic.TcCoe Idealize.ShloMosaic.ValueIdx
open Idealize.SL.Sem
open Idealize.ShloMosaic.Pipeline (Dat Cfg Window)

/-! ## The payloads at an index -/

/-- The segment-sum contraction's left operand index keeps the output's row. -/
theorem lhs_sum_0 (i : S32x128.Idx) (q : dot_S32x5000_S5000x128_S32x128_1_0_0_1_n_n.contr.Idx) :
    (dot_S32x5000_S5000x128_S32x128_1_0_0_1_n_n.lhsIdx i q 0).val = (i 0).val := by
  unfold DotDims.lhsIdx
  rw [dif_neg (show ¬(0 : Fin S32x5000.rank) ∈ dot_S32x5000_S5000x128_S32x128_1_0_0_1_n_n.lhsBatch by decide), dif_pos (show (0 : Fin S32x5000.rank) ∈ dot_S32x5000_S5000x128_S32x128_1_0_0_1_n_n.lhsNonContracting by decide)]
  rfl
/-- Its column is the contraction position. -/
theorem lhs_sum_1 (i : S32x128.Idx) (q : dot_S32x5000_S5000x128_S32x128_1_0_0_1_n_n.contr.Idx) :
    (dot_S32x5000_S5000x128_S32x128_1_0_0_1_n_n.lhsIdx i q 1).val = (q ⟨0, by decide⟩).val :=
  dot_S32x5000_S5000x128_S32x128_1_0_0_1_n_n.lhsIdx_val_of_single rfl i q
/-- The right operand's row is the contraction position. -/
theorem rhs_sum_0 (i : S32x128.Idx) (q : dot_S32x5000_S5000x128_S32x128_1_0_0_1_n_n.contr.Idx) :
    (dot_S32x5000_S5000x128_S32x128_1_0_0_1_n_n.rhsIdx i q 0).val = (q ⟨0, by decide⟩).val :=
  dot_S32x5000_S5000x128_S32x128_1_0_0_1_n_n.rhsIdx_val_of_single rfl i q
/-- Its column is the output's column. -/
theorem rhs_sum_1 (i : S32x128.Idx) (q : dot_S32x5000_S5000x128_S32x128_1_0_0_1_n_n.contr.Idx) :
    (dot_S32x5000_S5000x128_S32x128_1_0_0_1_n_n.rhsIdx i q 1).val = (i 1).val := by
  unfold DotDims.rhsIdx
  rw [dif_neg (show ¬(1 : Fin S5000x128.rank) ∈ dot_S32x5000_S5000x128_S32x128_1_0_0_1_n_n.rhsBatch by decide), dif_pos (show (1 : Fin S5000x128.rank) ∈ dot_S32x5000_S5000x128_S32x128_1_0_0_1_n_n.rhsNonContracting by decide)]
  rfl

/-- The contraction of a 32 × 5000 matrix with a 5000 × 128 one into the zero accumulator, at row `s`, column `d`:
    the sum over the 5000 positions of the products. -/
theorem sum_matmul_apply (a : FVec Ideal S32x5000 .bf16) (b : FVec Ideal S5000x128 .bf16) (s : Fin 32) (d : Fin 128) :
    FloatOps.matmul dot_S32x5000_S5000x128_S32x128_1_0_0_1_n_n none a b (constant (F := Ideal) S32x128 .f32 0x00000000#32) (ix2 s d)
      = ∑ r : Fin 5000, a (ix2 s r) * b (ix2 r d) := by
  rw [Ideal.matmul_constant_zero_apply, ← Equiv.sum_comp (ValueIdx.contrEquiv1 dot_S32x5000_S5000x128_S32x128_1_0_0_1_n_n 5000 rfl rfl).symm]
  refine Finset.sum_congr rfl fun k _ => ?_
  have hk := ValueIdx.contrEquiv1_symm_val dot_S32x5000_S5000x128_S32x128_1_0_0_1_n_n 5000 rfl rfl k
  have el : dot_S32x5000_S5000x128_S32x128_1_0_0_1_n_n.lhsIdx (ix2 s d) ((ValueIdx.contrEquiv1 dot_S32x5000_S5000x128_S32x128_1_0_0_1_n_n 5000 rfl rfl).symm k) = ix2 s k := funext fun a => Fin.ext (by
    match a with
    | ⟨0, _⟩ => exact lhs_sum_0 _ _
    | ⟨1, _⟩ => exact (lhs_sum_1 _ _).trans hk)
  have er : dot_S32x5000_S5000x128_S32x128_1_0_0_1_n_n.rhsIdx (ix2 s d) ((ValueIdx.contrEquiv1 dot_S32x5000_S5000x128_S32x128_1_0_0_1_n_n 5000 rfl rfl).symm k) = ix2 k d := funext fun a => Fin.ext (by
    match a with
    | ⟨0, _⟩ => exact (rhs_sum_0 _ _).trans hk
    | ⟨1, _⟩ => exact rhs_sum_1 _ _)
  rw [el, er]

/-- A rank-3 index with a leading unit coordinate, its first coordinate dropped. -/
theorem tail_ix3 (s : Fin 32) (d : Fin 128) :
    (fun a : Fin 2 => (ix3 (0 : Fin 1) s d : (⟨2 + 1, Matrix.vecCons 1 ![32, 128]⟩ : Shape).Idx) a.succ) = ix2 s d := by
  funext a
  match a with
  | ⟨0, _⟩ => rfl
  | ⟨1, _⟩ => rfl

/-- Region 0's payload at segment `s`, column `d`. -/
theorem k0_pay1_apply (x0 : Vec Ideal S1x1x5000 .i32) (x1 : Vec Ideal S5000x128 .f32) (s : Fin 32) (d : Fin 128) :
    k0_pay1 (F := Ideal) x0 x1 (ix3 0 s d) = ∑ r : Fin 5000, SegGate.oh (x0 (ix3 0 0 r)) s.val * x1 (ix2 r d) := by
  unfold k0_pay1
  refine (shapeCast_addUnit_apply ![32, 128] _ shapeCasts_S32x128_S1x32x128 (ix3 0 s d)).trans ?_
  rw [tail_ix3]
  refine (sum_matmul_apply _ _ s d).trans ?_
  refine Finset.sum_congr rfl fun r _ => ?_
  exact congrArg (· * x1 (ix2 r d))
    (SegGate.onehot_apply x0 shapeCasts_S1x1x5000_S1x5000 broadcasts_S1x5000_S32x5000 iota_S32x5000_d0_w32 natLt_1_32 s r)

/-- Region 1's sum payload at segment `s`, column `d`: the same sum over the gated rows. -/
theorem k1_pay3_apply (x0 : Vec Ideal S1x1x5000 .i32) (x1 : Vec Ideal S5000x128 .f32) (x2 : Vec Ideal S32x128 .f32)
    (s : Fin 32) (d : Fin 128) :
    k1_pay3 (F := Ideal) x0 x1 x2 (ix3 0 s d)
      = ∑ r : Fin 5000, SegGate.oh (x0 (ix3 0 0 r)) s.val * k1_pay2 (F := Ideal) x0 x1 x2 (ix2 r d) := by
  unfold k1_pay3
  refine (shapeCast_addUnit_apply ![32, 128] _ shapeCasts_S32x128_S1x32x128 (ix3 0 s d)).trans ?_
  rw [tail_ix3]
  refine (sum_matmul_apply _ _ s d).trans ?_
  refine Finset.sum_congr rfl fun r _ => ?_
  exact congrArg (· * k1_pay2 (F := Ideal) x0 x1 x2 (ix2 r d))
    (SegGate.onehot_apply x0 shapeCasts_S1x1x5000_S1x5000 broadcasts_S1x5000_S32x5000 iota_S32x5000_d0_w32 natLt_1_32 s r)

/-! ## The arrays -/

variable (V : (c : Dev nD) → (b : Ref sig .tc) → Buf (Elt Ideal) ((c : Thread nD τ).loc b))

/-! ### Region 0 -/

theorem hz2 : (![0, 0] : Fin 2 → Nat) = fun _ => 0 := funext fun a => by fin_cases a <;> rfl
theorem hz3 : (![0, 0, 0] : Fin 3 → Nat) = fun _ => 0 := funext fun a => by fin_cases a <;> rfl

/-- A point of region 0's grid as a tile number. -/
def tile0 (t : Fin cfg0.N) : Fin 20 := ⟨t.val, lt_of_lt_of_eq t.isLt N_0⟩

/-- The printed index maps, decided over the grid: point `t` names block `t` on the tile axis and block 0 elsewhere. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The labels' block at point `t` is tile `t` of the label array. -/
theorem blk0_0 (c : Dev nD) (t : Fin cfg0.N) (r : Fin 5000) :
    iblk0 V c 0 t (ix3 0 0 r) = V c main_v1 (ix3 (tile0 t) 0 r) := by
  obtain ⟨e0, e1, e2, -⟩ := idx_facts0 t
  unfold iblk0
  show V c main_v1 (((cfg0.win 0).blk t).view.emb (ix3 0 0 r)) = V c main_v1 (ix3 (tile0 t) 0 r)
  refine congrArg (V c main_v1) (funext fun a => Fin.ext ?_)
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 5000 + 1 * r.val = r.val; omega

/-- The rows' block at point `t` is rows `5000 t` to `5000 t + 4999` of the row array. -/
theorem blk0_1 (c : Dev nD) (t : Fin cfg0.N) (r : Fin 5000) (d : Fin 128) :
    iblk0 V c 1 t (ix2 r d)
      = V c main_arg0 (ix2 (SegGate.tileRow (A := 20) (T := 5000) (N := 100000) rfl (tile0 t) r) d) := by
  obtain ⟨-, -, -, e0, e1, -⟩ := idx_facts0 t
  unfold iblk0
  show V c main_arg0 (((cfg0.win 1).blk t).view.emb (ix2 r d))
    = V c main_arg0 (ix2 (SegGate.tileRow (A := 20) (T := 5000) (N := 100000) rfl (tile0 t) r) d)
  refine congrArg (V c main_arg0) (funext fun a => Fin.ext ?_)
  match a with
  | ⟨0, _⟩ => show win0_1.index t (0 : Fin 2) * 5000 + 1 * r.val = 5000 * t.val + r.val; omega
  | ⟨1, _⟩ => show win0_1.index t (1 : Fin 2) * 128 + 1 * d.val = d.val; omega

/-- WHAT POINT `t` WRITES BACK is block `t` of the per-tile segment sums. -/
theorem flushed0_2 (c : Dev nD) (t : Fin cfg0.N) :
    (dat0 (F := Ideal) V c).flushed 2 t
      = ((cfg0.win 2).blk t).view.read (Elt Ideal)
          (SegGate.partSum (A := 20) (T := 5000) (N := 100000) rfl 128 (V c main_v1) (V c main_arg0)) := by
  show (cfg0.win 2).cut (grid0.coords t) ((dat0 (F := Ideal) V c).after 2 t) = _
  rw [after0_2]
  unfold out0_2
  rw [View.canon_unit_zero hz3]
  simp only [View.ld_unit_zero (S := S1x1x5000) hz3, View.ld_unit_zero (S := S5000x128) hz2]
  refine funext fun (j : (⟨3, ![1, 32, 128]⟩ : Shape).Idx) => ?_
  have h0 : @Eq (Fin 1) (j 0) 0 := Subsingleton.elim (α := Fin 1) _ _
  obtain ⟨s, d, rfl⟩ : ∃ (s : Fin 32) (d : Fin 128), j = ix3 0 s d :=
    ⟨j 1, j 2, (eq_ix3 j).trans (congrArg (fun z : Fin 1 => ix3 z (j 1) (j 2)) h0)⟩
  obtain ⟨-, -, -, -, -, e0, e1, e2⟩ := idx_facts0 t
  have hemb : ((cfg0.win 2).blk t).view.emb (ix3 0 s d) = ix3 (tile0 t) s d := funext fun a => Fin.ext (by
    match a with
    | ⟨0, _⟩ => show win0_2.index t (0 : Fin 3) * 1 + 1 * 0 = t.val; omega
    | ⟨1, _⟩ => show win0_2.index t (1 : Fin 3) * 32 + 1 * s.val = s.val; omega
    | ⟨2, _⟩ => show win0_2.index t (2 : Fin 3) * 128 + 1 * d.val = d.val; omega)
  show k0_pay1 (F := Ideal) (iblk0 V c 0 t) (iblk0 V c 1 t) (ix3 0 s d)
    = SegGate.partSum (A := 20) (T := 5000) (N := 100000) rfl 128 (V c main_v1) (V c main_arg0)
        (((cfg0.win 2).blk t).view.emb (ix3 0 s d))
  refine (k0_pay1_apply (iblk0 V c 0 t) (iblk0 V c 1 t) s d).trans ?_
  refine Eq.trans ?_ (congrArg (SegGate.partSum (A := 20) (T := 5000) (N := 100000) rfl 128 (V c main_v1) (V c main_arg0)) hemb.symm)
  refine Eq.trans ?_ (SegGate.partSum_apply (A := 20) (T := 5000) (N := 100000) rfl 128 (V c main_v1) (V c main_arg0) (tile0 t) s d).symm
  refine Finset.sum_congr rfl fun r _ => ?_
  rw [blk0_0, blk0_1]

/-- An index of the output array is in point `t`'s block iff each coordinate is in the block's range on its axis. -/
theorem mem_blk0_2 (t : Fin cfg0.N) (i : S20x32x128.Idx) :
    i ∈ ((cfg0.win 2).blk t).view.set ↔ ∀ a : Fin 3, win0_2.index t a * S1x32x128.size a ≤ (i a).val ∧ (i a).val < win0_2.index t a * S1x32x128.size a + S1x32x128.size a := by
  show i ∈ ((View.whole main_v2).slice (win0_2.rect t)).set ↔ _
  rw [View.set_slice_whole, Rect.mem_set_unit]
  exact Iff.rfl

/-- Every index of the output array is in the block of the point its tile coordinate names. -/
theorem covered0_2 (i : S20x32x128.Idx) :
    ∃ t : Fin cfg0.N, (cfg0.win 2).flush t = true ∧ i ∈ ((cfg0.win 2).blk t).view.set := by
  have hi0 : (i 0).val < 20 := (i 0).isLt
  have hi1 : (i 1).val < 32 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨-, -, -, -, -, e0, e1, e2⟩ := idx_facts0 t
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 32 ≤ (i 1).val ∧ (i 1).val < win0_2.index t (1 : Fin 3) * 32 + 32; omega
  | ⟨2, _⟩ => show win0_2.index t (2 : Fin 3) * 128 ≤ (i 2).val ∧ (i 2).val < win0_2.index t (2 : Fin 3) * 128 + 128; omega

/-- Region 0's output array: the per-tile segment sums of `dst_na`. -/
theorem arr0_2 (c : Dev nD) :
    (dat0 (F := Ideal) V c).arrAt 2 cfg0.N
      = SegGate.partSum (A := 20) (T := 5000) (N := 100000) rfl 128 (V c main_v1) (V c main_arg0) :=
  (dat0 (F := Ideal) V c).arrAt_eq_of_cover 2
    (SegGate.partSum (A := 20) (T := 5000) (N := 100000) rfl 128 (V c main_v1) (V c main_arg0))
    (fun t _ => flushed0_2 V c t) covered0_2

/-! ### Region 1 -/

/-- A point of region 1's grid as a tile number. -/
def tile1 (t : Fin cfg1.N) : Fin 20 := ⟨t.val, lt_of_lt_of_eq t.isLt N_1⟩

/-- The printed index maps, decided over the grid: point `t` names block `t` on the tile axis and block 0 elsewhere;
    the gate table is one block. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The labels' block at point `t` is tile `t` of the label array. -/
theorem blk1_0 (c : Dev nD) (t : Fin cfg1.N) (r : Fin 5000) :
    iblk1 V c 0 t (ix3 0 0 r) = V c main_v1 (ix3 (tile1 t) 0 r) := by
  obtain ⟨e0, e1, e2, -⟩ := idx_facts1 t
  unfold iblk1
  show V c main_v1 (((cfg1.win 0).blk t).view.emb (ix3 0 0 r)) = V c main_v1 (ix3 (tile1 t) 0 r)
  refine congrArg (V c main_v1) (funext fun a => Fin.ext ?_)
  match a with
  | ⟨0, _⟩ => show win1_0.index t (0 : Fin 3) * 1 + 1 * 0 = t.val; omega
  | ⟨1, _⟩ => show win1_0.index t (1 : Fin 3) * 1 + 1 * 0 = 0; omega
  | ⟨2, _⟩ => show win1_0.index t (2 : Fin 3) * 5000 + 1 * r.val = r.val; omega

/-- The rows' block at point `t` is rows `5000 t` to `5000 t + 4999` of the row array. -/
theorem blk1_1 (c : Dev nD) (t : Fin cfg1.N) (r : Fin 5000) (d : Fin 128) :
    iblk1 V c 1 t (ix2 r d)
      = V c main_arg0 (ix2 (SegGate.tileRow (A := 20) (T := 5000) (N := 100000) rfl (tile1 t) r) d) := by
  obtain ⟨-, -, -, e0, e1, -⟩ := idx_facts1 t
  unfold iblk1
  show V c main_arg0 (((cfg1.win 1).blk t).view.emb (ix2 r d))
    = V c main_arg0 (ix2 (SegGate.tileRow (A := 20) (T := 5000) (N := 100000) rfl (tile1 t) r) d)
  refine congrArg (V c main_arg0) (funext fun a => Fin.ext ?_)
  match a with
  | ⟨0, _⟩ => show win1_1.index t (0 : Fin 2) * 5000 + 1 * r.val = 5000 * t.val + r.val; omega
  | ⟨1, _⟩ => show win1_1.index t (1 : Fin 2) * 128 + 1 * d.val = d.val; omega

/-- The gate table's block at every point is the whole table. -/
theorem blk1_2 (c : Dev nD) (t : Fin cfg1.N) (s : Fin 32) (d : Fin 128) :
    iblk1 V c 2 t (ix2 s d) = V c main_v32 (ix2 s d) := by
  obtain ⟨-, -, -, -, -, e0, e1, -⟩ := idx_facts1 t
  unfold iblk1
  show V c main_v32 (((cfg1.win 2).blk t).view.emb (ix2 s d)) = V c main_v32 (ix2 s d)
  refine congrArg (V c main_v32) (funext fun a => Fin.ext ?_)
  match a with
  | ⟨0, _⟩ => show win1_2.index t (0 : Fin 2) * 32 + 1 * s.val = s.val; omega
  | ⟨1, _⟩ => show win1_2.index t (1 : Fin 2) * 128 + 1 * d.val = d.val; omega

/-- The gated row of the body at point `t`, position `r`, is the gated row `5000 t + r` of the arrays. -/
theorem gated_blk1 (c : Dev nD) (t : Fin cfg1.N) (r : Fin 5000) (d : Fin 128) :
    k1_pay2 (F := Ideal) (iblk1 V c 0 t) (iblk1 V c 1 t) (iblk1 V c 2 t) (ix2 r d)
      = SegGate.gated (A := 20) (T := 5000) (N := 100000) rfl 128 (V c main_v1) (V c main_arg0) (V c main_v32)
          (ix2 (SegGate.tileRow (A := 20) (T := 5000) (N := 100000) rfl (tile1 t) r) d) := by
  refine (Cert.KernelIdeal.Gated.k1_pay2_apply (iblk1 V c 0 t) (iblk1 V c 1 t) (iblk1 V c 2 t) r d).trans ?_
  refine Eq.trans ?_ (SegGate.gated_apply (A := 20) (T := 5000) (N := 100000) rfl 128 (V c main_v1) (V c main_arg0) (V c main_v32)
    (SegGate.tileRow (A := 20) (T := 5000) (N := 100000) rfl (tile1 t) r) d).symm
  rw [SegGate.tileOf_tileRow, SegGate.posOf_tileRow, blk1_0, blk1_1]
  refine congrArg (fun z : EReal => (show EReal from V c main_arg0 (ix2 (SegGate.tileRow (A := 20) (T := 5000) (N := 100000) rfl (tile1 t) r) d)) * z) ?_
  refine Finset.sum_congr rfl fun s _ => ?_
  rw [blk1_2]

/-- WHAT POINT `t` WRITES BACK is block `t` of the per-tile segment sums of the gated rows. -/
theorem flushed1_4 (c : Dev nD) (t : Fin cfg1.N) :
    (dat1 (F := Ideal) V c).flushed 4 t
      = ((cfg1.win 4).blk t).view.read (Elt Ideal)
          (SegGate.partSum (A := 20) (T := 5000) (N := 100000) rfl 128 (V c main_v1)
            (SegGate.gated (A := 20) (T := 5000) (N := 100000) rfl 128 (V c main_v1) (V c main_arg0) (V c main_v32))) := by
  show (cfg1.win 4).cut (grid1.coords t) ((dat1 (F := Ideal) V c).after 4 t) = _
  rw [after1_4]
  unfold out1_4
  rw [View.canon_unit_zero hz3]
  simp only [View.ld_unit_zero (S := S1x1x5000) hz3, View.ld_unit_zero (S := S5000x128) hz2, View.ld_unit_zero (S := S32x128) hz2]
  refine funext fun (j : (⟨3, ![1, 32, 128]⟩ : Shape).Idx) => ?_
  have h0 : @Eq (Fin 1) (j 0) 0 := Subsingleton.elim (α := Fin 1) _ _
  obtain ⟨s, d, rfl⟩ : ∃ (s : Fin 32) (d : Fin 128), j = ix3 0 s d :=
    ⟨j 1, j 2, (eq_ix3 j).trans (congrArg (fun z : Fin 1 => ix3 z (j 1) (j 2)) h0)⟩
  obtain ⟨-, -, -, -, -, -, -, e0, e1, e2⟩ := idx_facts1 t
  have hemb : ((cfg1.win 4).blk t).view.emb (ix3 0 s d) = ix3 (tile1 t) s d := funext fun a => Fin.ext (by
    match a with
    | ⟨0, _⟩ => show win1_4.index t (0 : Fin 3) * 1 + 1 * 0 = t.val; omega
    | ⟨1, _⟩ => show win1_4.index t (1 : Fin 3) * 32 + 1 * s.val = s.val; omega
    | ⟨2, _⟩ => show win1_4.index t (2 : Fin 3) * 128 + 1 * d.val = d.val; omega)
  show k1_pay3 (F := Ideal) (iblk1 V c 0 t) (iblk1 V c 1 t) (iblk1 V c 2 t) (ix3 0 s d)
    = SegGate.partSum (A := 20) (T := 5000) (N := 100000) rfl 128 (V c main_v1)
        (SegGate.gated (A := 20) (T := 5000) (N := 100000) rfl 128 (V c main_v1) (V c main_arg0) (V c main_v32))
        (((cfg1.win 4).blk t).view.emb (ix3 0 s d))
  refine (k1_pay3_apply (iblk1 V c 0 t) (iblk1 V c 1 t) (iblk1 V c 2 t) s d).trans ?_
  refine Eq.trans ?_ (congrArg (SegGate.partSum (A := 20) (T := 5000) (N := 100000) rfl 128 (V c main_v1)
    (SegGate.gated (A := 20) (T := 5000) (N := 100000) rfl 128 (V c main_v1) (V c main_arg0) (V c main_v32))) hemb.symm)
  refine Eq.trans ?_ (SegGate.partSum_apply (A := 20) (T := 5000) (N := 100000) rfl 128 (V c main_v1)
    (SegGate.gated (A := 20) (T := 5000) (N := 100000) rfl 128 (V c main_v1) (V c main_arg0) (V c main_v32)) (tile1 t) s d).symm
  refine Finset.sum_congr rfl fun r _ => ?_
  rw [blk1_0, gated_blk1]

/-- An index of the output array is in point `t`'s block iff each coordinate is in the block's range on its axis. -/
theorem mem_blk1_4 (t : Fin cfg1.N) (i : S20x32x128.Idx) :
    i ∈ ((cfg1.win 4).blk t).view.set ↔ ∀ a : Fin 3, win1_4.index t a * S1x32x128.size a ≤ (i a).val ∧ (i a).val < win1_4.index t a * S1x32x128.size a + S1x32x128.size a := by
  show i ∈ ((View.whole main_v33_1).slice (win1_4.rect t)).set ↔ _
  rw [View.set_slice_whole, Rect.mem_set_unit]
  exact Iff.rfl

/-- Every index of the output array is in the block of the point its tile coordinate names. -/
theorem covered1_4 (i : S20x32x128.Idx) :
    ∃ t : Fin cfg1.N, (cfg1.win 4).flush t = true ∧ i ∈ ((cfg1.win 4).blk t).view.set := by
  have hi0 : (i 0).val < 20 := (i 0).isLt
  have hi1 : (i 1).val < 32 := (i 1).isLt
  have hi2 : (i 2).val < 128 := (i 2).isLt
  obtain ⟨t, ht⟩ : ∃ t : Fin cfg1.N, t.val = (i 0).val := ⟨⟨(i 0).val, lt_of_lt_of_eq hi0 N_1.symm⟩, rfl⟩
  obtain ⟨-, -, -, -, -, -, -, e0, e1, e2⟩ := idx_facts1 t
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 32 ≤ (i 1).val ∧ (i 1).val < win1_4.index t (1 : Fin 3) * 32 + 32; omega
  | ⟨2, _⟩ => show win1_4.index t (2 : Fin 3) * 128 ≤ (i 2).val ∧ (i 2).val < win1_4.index t (2 : Fin 3) * 128 + 128; omega

/-- Region 1's second output array: the per-tile segment sums of the gated rows. -/
theorem arr1_4 (c : Dev nD) :
    (dat1 (F := Ideal) V c).arrAt 4 cfg1.N
      = SegGate.partSum (A := 20) (T := 5000) (N := 100000) rfl 128 (V c main_v1)
          (SegGate.gated (A := 20) (T := 5000) (N := 100000) rfl 128 (V c main_v1) (V c main_arg0) (V c main_v32)) :=
  (dat1 (F := Ideal) V c).arrAt_eq_of_cover 4
    (SegGate.partSum (A := 20) (T := 5000) (N := 100000) rfl 128 (V c main_v1)
      (SegGate.gated (A := 20) (T := 5000) (N := 100000) rfl 128 (V c main_v1) (V c main_arg0) (V c main_v32)))
    (fun t _ => flushed1_4 V c t) covered1_4

end Cert.KernelIdeal.Sums

end
-- ==== Proof.ReferenceHost.lean ====
/-
  The reference's two results, named.

  The reference takes the segment means by a scatter-add of the rows at their labels, passes them through the
  three-layer perceptron and the logistic, and multiplies every row by the gate row gathered at its label; the second
  result does the same for the edge rows, whose label is the label of the edge's source node. A negative label or
  source counts from the end (the wrap in front of each gather).
-/
import proofs.«412414_j16080357556866_3_alg».proof.Proof.Gen.ReferenceIdeal.Run

set_option maxRecDepth 16384

noncomputable section

namespace Cert.ReferenceIdeal.Host

open Cert.ReferenceIdeal Cert.ReferenceIdeal.Gen
open Idealize.ShloMosaic Idealize.ShloMosaic.TcCoe Idealize.ShloMosaic.StableHlo
open Idealize.SL.Sem

variable {F : FTy → Type} [FloatOps F]

/-! ## The host computations, named -/

/-- The number of rows per segment, as floats. -/
def counts (ids : IVec S100000 32) : FVec F S32 .f32 :=
  Host.scatterAdd scatter_S32_S100000x1_S100000_n_0_0_1
    (broadcastInDim S32 ![] bcast_S_S32 (constant S_ .f32 0x00000000#32))
    (broadcastInDim S100000x1 ![0] bcast_S100000_S100000x1_0 ids)
    (broadcastInDim S100000 ![] bcast_S_S100000 (constant S_ .f32 0x3F800000#32))

/-- One layer's pre-activation: the product with the weights plus the bias row. -/
def layer (W : FVec F S128x128 .f32) (b : FVec F S128 .f32) (h : FVec F S32x128 .f32) : FVec F S32x128 .f32 :=
  addf (Host.dotGeneral dot_S32x128_S128x128_S32x128_1_0_0_1_n_n none h W)
    (broadcastInDim S32x128 ![0, 1] bcast_S1x128_S32x128_0_1 (broadcastInDim S1x128 ![1] bcast_S128_S1x128_1 b))

/-- The positive part. -/
def relu (h : FVec F S32x128 .f32) : FVec F S32x128 .f32 :=
  maximumf h (broadcastInDim S32x128 ![] bcast_S_S32x128 (constant S_ .f32 0x00000000#32))

/-- The gate table: the logistic of the three-layer perceptron of the segment means `sum / max(cnt, 1)`. -/
def gate (W1 : FVec F S128x128 .f32) (b1 : FVec F S128 .f32) (W2 : FVec F S128x128 .f32) (b2 : FVec F S128 .f32)
    (W3 : FVec F S128x128 .f32) (b3 : FVec F S128 .f32) (sum : FVec F S32x128 .f32) (cnt : FVec F S32 .f32) :
    FVec F S32x128 .f32 :=
  Host.divf (broadcastInDim S32x128 ![] bcast_S_S32x128 (constant S_ .f32 0x3F800000#32))
    (addf (broadcastInDim S32x128 ![] bcast_S_S32x128 (constant S_ .f32 0x3F800000#32))
      (Host.exp (Host.negf (layer W3 b3 (relu (layer W2 b2 (relu (layer W1 b1
        (Host.divf sum (broadcastInDim S32x128 ![0, 1] bcast_S32x1_S32x128_0_1 (broadcastInDim S32x1 ![0] bcast_S32_S32x1_0
          (maximumf cnt (broadcastInDim S32 ![] bcast_S_S32 (constant S_ .f32 0x3F800000#32))))))))))))))

/-- The edges' source nodes: the first row of the index array. -/
def edgeSrc (edge : IVec S2x600000 32) : IVec S600000 32 :=
  shapeCast S600000 (extractStridedSlice S1x600000 ![0, 0] edge slices_S2x600000_S1x600000_0_0) shapeCasts_S1x600000_S600000

/-- A negative source counted from the end of the 100000 rows. -/
def wrapSrc (e : IVec S600000 32) : IVec S600000 32 :=
  select (cmpi .slt e (broadcastInDim S600000 ![] bcast_S_S600000 (constantI S_ 32 0#32)))
    (addi e (broadcastInDim S600000 ![] bcast_S_S600000 (constantI S_ 32 100000#32))) e

/-- The wrapped sources as a column of start indices. -/
def srcCol (e : IVec S600000 32) : IVec S600000x1 32 :=
  broadcastInDim S600000x1 ![0] bcast_S600000_S600000x1_0 (wrapSrc e)

/-- The labels as a column of start indices. -/
def labCol (ids : IVec S100000 32) : IVec S100000x1 32 := broadcastInDim S100000x1 ![0] bcast_S100000_S100000x1_0 ids

/-- A negative label counted from the end of the 32 segments. -/
def wrapLab (ids : IVec S100000 32) : IVec S100000 32 :=
  select (cmpi .slt ids (broadcastInDim S100000 ![] bcast_S_S100000 (constantI S_ 32 0#32)))
    (addi ids (broadcastInDim S100000 ![] bcast_S_S100000 (constantI S_ 32 32#32))) ids

/-- The segment sums: the rows scattered and added at their labels into a zero table. -/
def segSum (ids : IVec S100000 32) (x : FVec F S100000x128 .f32) : FVec F S32x128 .f32 :=
  Host.scatterAdd scatter_S32x128_S100000x1_S100000x128_1_0_0_1
    (broadcastInDim S32x128 ![] bcast_S_S32x128 (constant S_ .f32 0x00000000#32)) (labCol ids) x

/-- Every row times the table's row gathered at the row's label. -/
def gatedRows (ids : IVec S100000 32) (x : FVec F S100000x128 .f32) (g : FVec F S32x128 .f32) : FVec F S100000x128 .f32 :=
  mulf x (Host.gather gather_S32x128_S100000x1_S100000x128_1_0_n_n_0_1_1128 g (labCol (wrapLab ids)))

/-- The label of each edge's source node. -/
def edgeLab (ids : IVec S100000 32) (edge : IVec S2x600000 32) : IVec S600000 32 :=
  Host.gather gather_S100000_S600000x1_S600000_n_0_n_n_0_1_1 ids (srcCol (edgeSrc edge))

/-- A negative edge label counted from the end of the 32 segments. -/
def wrapLabE (seg : IVec S600000 32) : IVec S600000 32 :=
  select (cmpi .slt seg (broadcastInDim S600000 ![] bcast_S_S600000 (constantI S_ 32 0#32)))
    (addi seg (broadcastInDim S600000 ![] bcast_S_S600000 (constantI S_ 32 32#32))) seg

/-- Every edge row times the table's row gathered at the edge's label. -/
def gatedEdges (seg : IVec S600000 32) (ea : FVec F S600000x128 .f32) (g : FVec F S32x128 .f32) : FVec F S600000x128 .f32 :=
  mulf ea (Host.gather gather_S32x128_S600000x1_S600000x128_1_0_n_n_0_1_1128 g
    (broadcastInDim S600000x1 ![0] bcast_S600000_S600000x1_0 (wrapLabE seg)))

variable (m : (ℓ : Loc nD τ sig) → Buf (Elt F) ℓ)

/-- The first result: the gated node rows. -/
def out0 (c : Dev nD) : FVec F S100000x128 .f32 :=
  gatedRows (m ((c.tc : Thread nD τ).loc main_arg3)) (m ((c.tc : Thread nD τ).loc main_arg0))
    (gate (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (segSum (m ((c.tc : Thread nD τ).loc main_arg3)) (m ((c.tc : Thread nD τ).loc main_arg0)))
      (counts (m ((c.tc : Thread nD τ).loc main_arg3))))

/-- The second result: the gated edge rows. -/
def out1 (c : Dev nD) : FVec F S600000x128 .f32 :=
  gatedEdges (edgeLab (m ((c.tc : Thread nD τ).loc main_arg3)) (m ((c.tc : Thread nD τ).loc main_arg2)))
    (m ((c.tc : Thread nD τ).loc main_arg1))
    (gate (m ((c.tc : Thread nD τ).loc main_arg10)) (m ((c.tc : Thread nD τ).loc main_arg11)) (m ((c.tc : Thread nD τ).loc main_arg12))
      (m ((c.tc : Thread nD τ).loc main_arg13)) (m ((c.tc : Thread nD τ).loc main_arg14)) (m ((c.tc : Thread nD τ).loc main_arg15))
      (segSum (m ((c.tc : Thread nD τ).loc main_arg3)) (out0 m c))
      (counts (m ((c.tc : Thread nD τ).loc main_arg3))))

variable (ρ : Dev nD → PrngReg)

set_option maxRecDepth 200000 in
set_option maxHeartbeats 8000000 in
/-- The reference's run with its two results named: the generated run's terms are `out0` and `out1`, unfolded. -/
theorem run_named : θ_run defs (onTc (τ := τ) (main (F := F))) ⟨m, fun _ => 0, ρ⟩ fun r => ∀ c : Dev nD,
      r.2.mem ((c.tc : Thread nD τ).loc main_v39) = out0 m c
      ∧ r.2.mem ((c.tc : Thread nD τ).loc main_v88) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans rfl, (h c).2.1.trans (by unfold Value.res_main_v88; rfl), (h c).2.2⟩)
    (Value.run m ρ)

end Cert.ReferenceIdeal.Host

end
-- ==== Proof.Laws.lean ====
/-
  The laws that join the two programs, for labels in range.

  A label below 32 is unchanged by a clamp to [0, 31] and by the wrap that counts a negative index from the end. For
  such labels, laid out tile by tile, the product of each row with the one-hot contraction of its label against a
  32-row table is the product with the row gathered from the table at the label; and the per-tile partial segment
  sums, summed over the tiles by the host, are the scatter-add of the rows at their labels into a zero table.
-/
import Idealize.ShloMosaic.PureOps.Ideal.Laws
import Idealize.ShloMosaic.Lib.Pipeline.Value
import Idealize.ShloMosaic.Lib.Affine
import proofs.«412414_j16080357556866_3_alg».proof.Proof.Spec

noncomputable section

open scoped BigOperators

namespace SegGate

open Idealize.ShloMosaic Idealize.ShloMosaic.ValueIdx

/-! ## Words -/

/-- The clamp to [0, 31] of a label below 32 is the label. -/
theorem clip_word {a : BitVec 32} (ha : a.toNat < 32) : IntOp.minsi 31#32 (IntOp.maxsi 0#32 a) = a := by
  have hti : a.toInt = a.toNat := StableHlo.Predicate.toInt_eq_toNat_of_lt (by omega)
  have h0 : (0#32 : BitVec 32).toInt = 0 := by decide
  have h31 : (31#32 : BitVec 32).toInt = 31 := by decide
  have hmax : IntOp.maxsi 0#32 a = a := by
    unfold IntOp.maxsi
    rw [if_neg]
    simp only [BitVec.slt, hti, h0, decide_eq_true_eq]
    omega
  rw [hmax]
  unfold IntOp.minsi
  rw [if_neg]
  simp only [BitVec.slt, hti, h31, decide_eq_true_eq]
  omega

/-- A word that is not negative is unchanged by the wrap that adds `k` to a negative index. -/
theorem wrap_word {a : BitVec 32} (k : BitVec 32) (ha : a.toNat < 2 ^ 31) :
    Scalar.select (IntOp.cmpi .slt a 0#32) (IntOp.addi a k) a = a := by
  unfold Scalar.select
  rw [if_neg]
  intro h
  have h1 := IntOp.cmpi_slt.mp h
  rw [StableHlo.Predicate.toInt_eq_toNat_of_lt ha] at h1
  have h0 : (0#32 : BitVec 32).toInt = 0 := by decide
  omega

/-! ## Labels laid out tile by tile -/

section Tiled
variable {A T N : ℕ} (hN : A * T = N)

/-- A vector of `N` labels cast to `[A, 1, T]` holds row `r` of tile `t` at `(t, 0, r)`. -/
theorem tiled_apply (hsc : (⟨1, ![N]⟩ : Shape).ShapeCasts ⟨3, ![A, 1, T]⟩) (lab : IVec ⟨1, ![N]⟩ 32) (t : Fin A) (r : Fin T) :
    shapeCast ⟨3, ![A, 1, T]⟩ lab hsc (ix3 t 0 r) = lab (ix1 (tileRow hN t r)) := by
  refine shapeCast_apply lab hsc (ix3 t 0 r) (ix1 (tileRow hN t r)) ?_
  rw [Shape.rowMajor_val_one, Shape.rowMajor_val_three]
  show T * t.val + r.val = (t.val * 1 + 0) * T + r.val
  ring

/-- A vector of `N` words as a column of start indices holds word `n` at `(n, 0)`. -/
theorem column_apply (hbc : (⟨1, ![N]⟩ : Shape).BroadcastsInDim ⟨2, ![N, 1]⟩ ![0]) (lab : IVec ⟨1, ![N]⟩ 32) (n : Fin N) :
    broadcastInDim ⟨2, ![N, 1]⟩ ![0] hbc lab (ix2 n 0) = lab (ix1 n) := by
  refine broadcastInDim_apply ![0] hbc lab (ix2 n 0) (ix1 n) fun a => ?_
  match a with
  | ⟨0, _⟩ =>
    show n.val = if N = 1 then 0 else n.val
    split
    · have := n.isLt; omega
    · rfl

/-- THE LOOK-UP. For labels below 32: each row times the one-hot contraction of its label against the table is the row
    times the table's row gathered at the label. -/
theorem gated_eq_mul_gather (C : ℕ) (hsc : (⟨1, ![N]⟩ : Shape).ShapeCasts ⟨3, ![A, 1, T]⟩)
    (wf : GatherDims.WF ⟨2, ![32, C]⟩ ⟨2, ![N, 1]⟩ ⟨2, ![N, C]⟩ [1] [0] [] [0] [] 1 ![1, C])
    (hbc : (⟨1, ![N]⟩ : Shape).BroadcastsInDim ⟨2, ![N, 1]⟩ ![0])
    (lab : IVec ⟨1, ![N]⟩ 32) (hB : ∀ n : Fin N, (lab (ix1 n)).toNat < 32)
    (x : FVec Ideal ⟨2, ![N, C]⟩ .f32) (g : FVec Ideal ⟨2, ![32, C]⟩ .f32) :
    gated hN C (shapeCast ⟨3, ![A, 1, T]⟩ lab hsc) x g
      = mulf x (Host.gather (RowOps.gatherDims 32 N C wf) g (broadcastInDim ⟨2, ![N, 1]⟩ ![0] hbc lab)) := by
  funext i
  obtain ⟨n, d, rfl⟩ : ∃ (n : Fin N) (d : Fin C), i = ix2 n d := ⟨i 0, i 1, eq_ix2 i⟩
  rw [gated_eq_row hN C _ (fun n => lab (ix1 n)) (fun t r => tiled_apply hN hsc lab t r) hB x g n d]
  show _ = x (ix2 n d) * Host.gather (RowOps.gatherDims 32 N C wf) g (broadcastInDim ⟨2, ![N, 1]⟩ ![0] hbc lab) (ix2 n d)
  rw [RowOps.gather_apply (by decide) wf g _ n d, column_apply hbc lab n]

end Tiled

/-! ## The segment sums -/

/-- THE SEGMENT SUMS. For labels below 32: the host's sum over the 20 tiles of the per-tile partial sums is the
    scatter-add of the rows, at their labels, into a zero table. -/
theorem reduceAdd_partSum (hsc : (⟨1, ![100000]⟩ : Shape).ShapeCasts ⟨3, ![20, 1, 5000]⟩)
    (hred' : (⟨3, ![20, 32, 128]⟩ : Shape).ReducesTo [0] ⟨2, ![32, 128]⟩) (hu : 0 < (⟨0, ![]⟩ : Shape).numel)
    (wf : ScatterDims.WF ⟨2, ![32, 128]⟩ ⟨2, ![100000, 1]⟩ ⟨2, ![100000, 128]⟩ [1] [0] [0] 1)
    (hb0 : (⟨0, ![]⟩ : Shape).BroadcastsInDim ⟨2, ![32, 128]⟩ ![])
    (hbc : (⟨1, ![100000]⟩ : Shape).BroadcastsInDim ⟨2, ![100000, 1]⟩ ![0])
    (lab : IVec ⟨1, ![100000]⟩ 32) (hB : ∀ n : Fin 100000, (lab (ix1 n)).toNat < 32)
    (x : FVec Ideal ⟨2, ![100000, 128]⟩ .f32) :
    Host.reduceAdd (F := Ideal)
        (partSum (A := 20) (T := 5000) (N := 100000) rfl 128 (shapeCast ⟨3, ![20, 1, 5000]⟩ lab hsc) x)
        (constant (F := Ideal) ⟨0, ![]⟩ .f32 0x00000000#32) hred' hu
      = Host.scatterAdd (F := Ideal) (RowOps.scatterDims 32 100000 128 wf)
          (broadcastInDim ⟨2, ![32, 128]⟩ ![] hb0 (constant (F := Ideal) ⟨0, ![]⟩ .f32 0x00000000#32))
          (broadcastInDim ⟨2, ![100000, 1]⟩ ![0] hbc lab) x := by
  funext j
  obtain ⟨s, d, rfl⟩ : ∃ (s : Fin 32) (d : Fin 128), j = ix2 s d := ⟨j 0, j 1, eq_ix2 j⟩
  have hred : (⟨3, ![20, 32, 128]⟩ : Shape).Reduces [0] ⟨2, ![32, 128]⟩ := by decide
  have hlift : ∀ k : Fin 20, hred.lift (ix2 s d) k = ix3 k s d := fun k => by
    funext a
    match a with
    | ⟨0, _⟩ => rfl
    | ⟨1, _⟩ => rfl
    | ⟨2, _⟩ => rfl
  rw [RowOps.scatterAdd_apply wf _ _ x s d]
  unfold Host.reduceAdd
  rw [Ideal.hostReduceAdd_def, Ideal.hostReduceAdd_single hred' hred]
  have hz : (constant (F := Ideal) ⟨0, ![]⟩ .f32 0x00000000#32) (Shape.Idx.first hu) = 0 := Ideal.ofBits_zero_f32
  have hz2 : broadcastInDim ⟨2, ![32, 128]⟩ ![] hb0 (constant (F := Ideal) ⟨0, ![]⟩ .f32 0x00000000#32) (ix2 s d) = 0 :=
    Ideal.ofBits_zero_f32
  rw [hz, hz2]
  refine congrArg (0 + ·) ?_
  refine ((Finset.sum_congr rfl fun k _ => congrArg _ (hlift k)).trans
    (sum_partSum_eq_filter (A := 20) (T := 5000) (N := 100000) rfl 128 _ (fun n => lab (ix1 n))
      (fun t r => tiled_apply rfl hsc lab t r) hB x s d)).trans ?_
  refine Finset.sum_congr (Finset.filter_congr fun e _ => ?_) fun _ _ => rfl
  rw [column_apply hbc lab e]

end SegGate

end
-- ==== Proof.PreDecode.lean ====
/-
  The index conjuncts of the precondition, read back.

  The precondition is a conjunction, printed as a chain of one-bit `and`s; its last four conjuncts say that every label
  is at least 0 and below 32, and that every edge's source node is at least 0 and below 100000, each as an
  all-reduction of a signed comparison. Read back at an index they bound the words' natural values.
-/
import proofs.«412414_j16080357556866_3_alg».proof.Proof.Gen.Pre_finite_inputs
import Idealize.ShloMosaic.Lib.ReduceAll
import Idealize.ShloMosaic.Lib.ValueIdx
import Idealize.ShloMosaic.Lib.StableHlo.Predicate

noncomputable section

namespace Cert.Pre_finite_inputs.Decode

open Idealize.ShloMosaic Idealize.ShloMosaic.ValueIdx Cert.Pre_finite_inputs Cert.Pre_finite_inputs.Facts

instance : Subsingleton S_.Idx := ⟨fun a b => funext fun d => d.elim0⟩

/-- A word that, read signed, is at least 0 and below the small number `k` has a natural value below `k`. -/
theorem toNat_lt_of_signed {a : BitVec 32} (k : ℕ) (hk : k < 2 ^ 31)
    (h0 : (0#32 : BitVec 32).toInt ≤ a.toInt) (h1 : a.toInt < (BitVec.ofNat 32 k).toInt) : a.toNat < k := by
  have hz : (0#32 : BitVec 32).toInt = 0 := by decide
  rw [StableHlo.Predicate.toInt_ofNat_small k hk] at h1
  rw [hz] at h0
  have hc := BitVec.toInt_eq_toNat_cond a
  have hlt := a.isLt
  split_ifs at hc <;> omega

theorem andi_apply (x y : IVec S_ 1) (i : S_.Idx) : andi x y i = IntOp.andi (x i) (y i) := rfl

variable (a0 : FVec Ideal S100000x128 .f32) (a1 : FVec Ideal S600000x128 .f32) (a2 : IVec S2x600000 32) (a3 : IVec S100000 32)
  (a4 : FVec Ideal S128x128 .f32) (a5 : FVec Ideal S128 .f32) (a6 : FVec Ideal S128x128 .f32) (a7 : FVec Ideal S128 .f32)
  (a8 : FVec Ideal S128x128 .f32) (a9 : FVec Ideal S128 .f32) (a10 : FVec Ideal S128x128 .f32) (a11 : FVec Ideal S128 .f32)
  (a12 : FVec Ideal S128x128 .f32) (a13 : FVec Ideal S128 .f32) (a14 : FVec Ideal S128x128 .f32) (a15 : FVec Ideal S128 .f32)

/-- The edges' source nodes: the first row of the index array. -/
abbrev src (a2 : IVec S2x600000 32) : IVec S600000 32 :=
  shapeCast S600000 (extractStridedSlice S1x600000 ![0, 0] a2 slices_S2x600000_S1x600000_0_0) shapeCasts_S1x600000_S600000

/-- The four index conjuncts, each an all-reduction that is 1. -/
theorem conjuncts (h : fn (F := Ideal) a0 a1 a2 a3 a4 a5 a6 a7 a8 a9 a10 a11 a12 a13 a14 a15 = fun _ => 1#1) :
    (Host.reduce IntOp.andi (cmpi .sge a3 (broadcastInDim S100000 ![] bcast_S_S100000 (constantI S_ 32 0#32)))
        (constantI S_ 1 1#1) reducesTo_S100000_S_d0 h_S_ ix0 = 1#1)
    ∧ (Host.reduce IntOp.andi (cmpi .slt a3 (broadcastInDim S100000 ![] bcast_S_S100000 (constantI S_ 32 32#32)))
        (constantI S_ 1 1#1) reducesTo_S100000_S_d0 h_S_ ix0 = 1#1)
    ∧ (Host.reduce IntOp.andi (cmpi .sge (src a2) (broadcastInDim S600000 ![] bcast_S_S600000 (constantI S_ 32 0#32)))
        (constantI S_ 1 1#1) reducesTo_S600000_S_d0 h_S_ ix0 = 1#1)
    ∧ (Host.reduce IntOp.andi (cmpi .slt (src a2) (broadcastInDim S600000 ![] bcast_S_S600000 (constantI S_ 32 100000#32)))
        (constantI S_ 1 1#1) reducesTo_S600000_S_d0 h_S_ ix0 = 1#1) := by
  have h0 := congrFun h ix0
  dsimp only [fn, fn_part1, fn_part2, fn_part3, fn_part4, fn_part5] at h0
  rw [andi_apply] at h0
  obtain ⟨h1, hlte⟩ := IntOp.andi_eq_one.mp h0
  rw [andi_apply] at h1
  obtain ⟨h2, hgee⟩ := IntOp.andi_eq_one.mp h1
  rw [andi_apply] at h2
  obtain ⟨h3, hltb⟩ := IntOp.andi_eq_one.mp h2
  rw [andi_apply] at h3
  obtain ⟨h4, hgeb⟩ := IntOp.andi_eq_one.mp h3
  exact ⟨hgeb, hltb, hgee, hlte⟩

/-- Every label is a number below 32. -/
theorem labels_lt (h : fn (F := Ideal) a0 a1 a2 a3 a4 a5 a6 a7 a8 a9 a10 a11 a12 a13 a14 a15 = fun _ => 1#1)
    (n : Fin 100000) : (a3 (ix1 n)).toNat < 32 := by
  obtain ⟨hge, hlt, -, -⟩ := conjuncts a0 a1 a2 a3 a4 a5 a6 a7 a8 a9 a10 a11 a12 a13 a14 a15 h
  have e0 : IntOp.cmpi .sge (a3 (ix1 n)) (0#32) = 1#1 := Host.reduce_andi_all _ _ _ _ _ hge (ix1 n)
  have e1 : IntOp.cmpi .slt (a3 (ix1 n)) (32#32) = 1#1 := Host.reduce_andi_all _ _ _ _ _ hlt (ix1 n)
  exact toNat_lt_of_signed 32 (by norm_num) (IntOp.cmpi_sge.mp e0) (IntOp.cmpi_slt.mp e1)

/-- Every edge's source node is a number below 100000. -/
theorem sources_lt (h : fn (F := Ideal) a0 a1 a2 a3 a4 a5 a6 a7 a8 a9 a10 a11 a12 a13 a14 a15 = fun _ => 1#1)
    (e : Fin 600000) : (src a2 (ix1 e)).toNat < 100000 := by
  obtain ⟨-, -, hge, hlt⟩ := conjuncts a0 a1 a2 a3 a4 a5 a6 a7 a8 a9 a10 a11 a12 a13 a14 a15 h
  have e0 : IntOp.cmpi .sge (src a2 (ix1 e)) (0#32) = 1#1 := Host.reduce_andi_all _ _ _ _ _ hge (ix1 e)
  have e1 : IntOp.cmpi .slt (src a2 (ix1 e)) (100000#32) = 1#1 := Host.reduce_andi_all _ _ _ _ _ hlt (ix1 e)
  exact toNat_lt_of_signed 100000 (by norm_num) (IntOp.cmpi_sge.mp e0) (IntOp.cmpi_slt.mp e1)

end Cert.Pre_finite_inputs.Decode

end
-- ==== Proof.Bridge.lean ====
/-
  The kernel's two results are the reference's, for labels below 32 and source nodes below 100000.

  With labels in range the clamp, the wrap of a negative index and the in-bounds mask of the source read are all
  identities. The kernel's one-hot look-ups are then the reference's row gathers, and its per-tile partial sums, summed
  over the tiles, are the reference's scatter-adds; the counts, the division by them, the perceptron and the logistic
  are one function of equal arguments on both sides.
-/
import proofs.«412414_j16080357556866_3_alg».proof.Defs
import proofs.«412414_j16080357556866_3_alg».proof.Proof.Gen.Kernel.Frame
import proofs.«412414_j16080357556866_3_alg».proof.Proof.KernelIdealRun
import proofs.«412414_j16080357556866_3_alg».proof.Proof.KernelHost
import proofs.«412414_j16080357556866_3_alg».proof.Proof.KernelGated
import proofs.«412414_j16080357556866_3_alg».proof.Proof.KernelSums
import proofs.«412414_j16080357556866_3_alg».proof.Proof.ReferenceHost
import proofs.«412414_j16080357556866_3_alg».proof.Proof.Laws
import proofs.«412414_j16080357556866_3_alg».proof.Proof.PreDecode
import Idealize.ShloMosaic.Lib.StableHlo.Predicate
import Idealize.ShloMosaic.Lib.SortFacts

set_option maxRecDepth 16384

noncomputable section

namespace Cert.Bridge

open Idealize.ShloMosaic Idealize.ShloMosaic.TcCoe Idealize.ShloMosaic.ValueIdx Idealize.SL.Sem SegGate
open Cert.KernelIdeal Cert.KernelIdeal.Gen

/-! ## One function on both sides -/

theorem counts_eq : @Cert.ReferenceIdeal.Host.counts Ideal _ = @Cert.KernelIdeal.Host.counts Ideal _ := rfl
theorem gate_eq : @Cert.ReferenceIdeal.Host.gate Ideal _ = @Cert.KernelIdeal.Host.gate Ideal _ := rfl
theorem edgeSrc_eq : Cert.ReferenceIdeal.Host.edgeSrc = Cert.KernelIdeal.Host.edgeSrc := rfl
theorem srcCol_eq : Cert.ReferenceIdeal.Host.srcCol = Cert.KernelIdeal.Host.srcCol := rfl

/-! ## Words in range -/

section Labels
variable (ids : IVec S100000 32) (hB : ∀ n : Fin 100000, (ids (ix1 n)).toNat < 32)
include hB

/-- The clamp of the labels is the labels. -/
theorem clip_ids : Cert.KernelIdeal.Host.clipIds ids = ids := by
  funext i
  obtain ⟨n, rfl⟩ : ∃ n : Fin 100000, i = ix1 n := ⟨i 0, eq_ix1 i⟩
  exact clip_word (hB n)

/-- The wrap of the labels is the labels. -/
theorem wrap_ids : Cert.ReferenceIdeal.Host.wrapLab ids = ids := by
  funext i
  obtain ⟨n, rfl⟩ : ∃ n : Fin 100000, i = ix1 n := ⟨i 0, eq_ix1 i⟩
  exact wrap_word _ (by have := hB n; omega)

/-- The label read at any column of start indices is below 32 (`d`: the dimension numbers of a take). -/
theorem edgeLab_lt (d : GatherDims S100000 S600000x1 S600000) (hcoll : d.collapsedSliceDims = [0])
    (hob : d.operandBatchingDims = []) (hsim : d.startIndexMap = [0]) (hivd : d.indexVectorDim = 1)
    (col : IVec S600000x1 32) (e : Fin 600000) : (Host.gather d ids col (ix1 e)).toNat < 32 := by
  have h := StableHlo.Predicate.gather_take d hcoll hob hsim hivd ids col e (by decide)
  have e1 : (ix1 e : (⟨1, ![600000]⟩ : Shape).Idx) = Shape.Idx.ofFin e := Shape.Idx.eq_ofFin (ix1 e)
  rw [e1, h, Shape.Idx.eq_ofFin (Shape.Idx.ofFin _)]
  exact (Shape.Idx.eq_ofFin (ix1 _)) ▸ hB _

end Labels

/-- An all-reduction by `and` of ones, from one, is one. -/
theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_ones f hf l

section Sources
variable (e0 : IVec S600000 32) (hE : ∀ e : Fin 600000, (e0 (ix1 e)).toNat < 100000)
include hE

/-- The wrap of the source nodes is the source nodes. -/
theorem wrap_src : Cert.KernelIdeal.Host.wrapSrc e0 = e0 := by
  funext i
  obtain ⟨e, rfl⟩ : ∃ e : Fin 600000, i = ix1 e := ⟨i 0, eq_ix1 i⟩
  exact wrap_word _ (by have := hE e; omega)

/-- Every source is inside [0, 99999]: the in-bounds mask of the read is all ones, and the read is the gather. -/
theorem take_eq (ids : IVec S100000 32) :
    Cert.KernelIdeal.Host.takeIds ids e0
      = Host.gather gather_S100000_S600000x1_S600000_n_0_n_n_0_1_1 ids (Cert.KernelIdeal.Host.srcCol e0) := by
  have hcol : ∀ i : S600000x1.Idx, (Cert.KernelIdeal.Host.srcCol e0 i).toNat < 100000 := fun i => by
    obtain ⟨e, q, rfl⟩ : ∃ (e : Fin 600000) (q : Fin 1), i = ix2 e q := ⟨i 0, i 1, eq_ix2 i⟩
    have hq : q = 0 := Subsingleton.elim _ _
    subst hq
    unfold Cert.KernelIdeal.Host.srcCol
    rw [column_apply (N := 600000) bcast_S600000_S600000x1_0, wrap_src e0 hE]
    exact hE e
  have hmask : ∀ i : S600000x1.Idx,
      andi (cmpi .sge (Cert.KernelIdeal.Host.srcCol e0) (broadcastInDim S600000x1 ![] bcast_S_S600000x1 (constantI S_ 32 0#32)))
        (cmpi .sle (Cert.KernelIdeal.Host.srcCol e0) (broadcastInDim S600000x1 ![0, 1] bcast_S1x1_S600000x1_0_1
          (broadcastInDim S1x1 ![1] bcast_S1_S1x1_1 (constantI S1 32 99999#32)))) i = 1#1 := fun i => by
    have h := hcol i
    have hti : (Cert.KernelIdeal.Host.srcCol e0 i).toInt = ((Cert.KernelIdeal.Host.srcCol e0 i).toNat : Int) :=
      StableHlo.Predicate.toInt_eq_toNat_of_lt (by omega)
    refine IntOp.andi_eq_one.mpr ⟨IntOp.cmpi_sge.mpr ?_, IntOp.cmpi_sle.mpr ?_⟩
    · show (0#32 : BitVec 32).toInt ≤ _
      rw [hti, show (0#32 : BitVec 32).toInt = 0 from by decide]
      omega
    · show _ ≤ (99999#32 : BitVec 32).toInt
      rw [hti, show (99999#32 : BitVec 32).toInt = 99999 from by decide]
      omega
  funext i
  unfold Cert.KernelIdeal.Host.takeIds
  show Scalar.select (Host.reduce IntOp.andi _ (constantI S_ 1 1#1) reducesTo_S600000x1_S600000_d1 h_S_ i) _ _ = _
  rw [Host.reduce_eq_foldl]
  show Scalar.select (List.foldl _ 1#1 _) _ _ = _
  rw [foldl_andi_ones _ hmask]
  rfl

end Sources

/-! ## The two results -/

section Results
variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- The node rows: the kernel's first result array is the reference's first result. -/
theorem result0 (hB : ∀ n : Fin 100000, ((m ((c : Thread nD τ).loc main_arg3)) (ix1 n)).toNat < 32)
    (h0 : m' ((c.tc : Thread Cert.ReferenceIdeal.nD Cert.ReferenceIdeal.τ).loc Cert.ReferenceIdeal.main_arg0) = m ((c : Thread nD τ).loc main_arg0))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8))
    (h9 : m' ((c.tc : Thread Cert.ReferenceIdeal.nD Cert.ReferenceIdeal.τ).loc Cert.ReferenceIdeal.main_arg9) = m ((c : Thread nD τ).loc main_arg9)) :
    Cert.ReferenceIdeal.Host.out0 m' c = (dat1 (V9 m ρ) c).arrAt 3 cfg1.N := by
  unfold Cert.ReferenceIdeal.Host.out0
  rw [h0, h3, h4, h5, h6, h7, h8, h9]
  unfold Cert.ReferenceIdeal.Host.gatedRows
  rw [wrap_ids _ hB]
  rw [Cert.KernelIdeal.Gated.arr1_3 (V9 m ρ) c, Cert.KernelIdeal.Host.v9_labels m ρ c, Cert.KernelIdeal.Host.v9_rows m ρ c,
    Cert.KernelIdeal.Host.v9_gate m ρ c, Cert.KernelIdeal.Sums.arr0_2 (V3 m ρ) c, Cert.KernelIdeal.Host.v3_labels m ρ c,
    Cert.KernelIdeal.Host.v3_rows m ρ c]
  unfold Cert.KernelIdeal.Host.labels3
  rw [clip_ids _ hB]
  rw [reduceAdd_partSum shapeCasts_S100000_S20x1x5000 reducesTo_S20x32x128_S32x128_d0 h_S_
    Cert.ReferenceIdeal.Facts₀.scatter_S32x128_S100000x1_S100000x128_1_0_0_1_wf bcast_S_S32x128 bcast_S100000_S100000x1_0 _ hB]
  rw [gated_eq_mul_gather (A := 20) (T := 5000) (N := 100000) rfl 128 shapeCasts_S100000_S20x1x5000
    Cert.ReferenceIdeal.Facts₀.gather_S32x128_S100000x1_S100000x128_1_0_n_n_0_1_1128_wf bcast_S100000_S100000x1_0 _ hB]
  rw [gate_eq, counts_eq]
  rfl

/-- Region 1's partial sums are the per-tile segment sums of its own first output array. -/
theorem partial_of_out0 :
    (dat1 (V9 m ρ) c).arrAt 4 cfg1.N
      = partSum (A := 20) (T := 5000) (N := 100000) rfl 128 (V9 m ρ c main_v1) ((dat1 (V9 m ρ) c).arrAt 3 cfg1.N) :=
  (Cert.KernelIdeal.Sums.arr1_4 (V9 m ρ) c).trans
    (congrArg (fun z => partSum (A := 20) (T := 5000) (N := 100000) rfl 128 (V9 m ρ c main_v1) z)
      (Cert.KernelIdeal.Gated.arr1_3 (V9 m ρ) c).symm)

/-- The wrap of the edges' labels is the edges' labels. -/
theorem wrap_edgeLab (ids : IVec S100000 32) (hB : ∀ n : Fin 100000, (ids (ix1 n)).toNat < 32)
    (d : GatherDims S100000 S600000x1 S600000) (hcoll : d.collapsedSliceDims = [0])
    (hob : d.operandBatchingDims = []) (hsim : d.startIndexMap = [0]) (hivd : d.indexVectorDim = 1) (col : IVec S600000x1 32) :
    Cert.ReferenceIdeal.Host.wrapLabE (Host.gather d ids col) = Host.gather d ids col := by
  funext i
  obtain ⟨e, rfl⟩ : ∃ e : Fin 600000, i = ix1 e := ⟨i 0, eq_ix1 i⟩
  exact wrap_word _ (by have := edgeLab_lt ids hB d hcoll hob hsim hivd col e; omega)

set_option maxHeartbeats 4000000 in
/-- The edge rows: the kernel's second result array is the reference's second result. -/
theorem result1 (hB : ∀ n : Fin 100000, ((m ((c : Thread nD τ).loc main_arg3)) (ix1 n)).toNat < 32)
    (hE : ∀ e : Fin 600000, (Cert.KernelIdeal.Host.edgeSrc (m ((c : Thread nD τ).loc main_arg2)) (ix1 e)).toNat < 100000)
    (hout0 : Cert.ReferenceIdeal.Host.out0 m' c = (dat1 (V9 m ρ) c).arrAt 3 cfg1.N)
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h10 : m' ((c.tc : Thread Cert.ReferenceIdeal.nD Cert.ReferenceIdeal.τ).loc Cert.ReferenceIdeal.main_arg10) = m ((c : Thread nD τ).loc main_arg10))
    (h11 : m' ((c.tc : Thread Cert.ReferenceIdeal.nD Cert.ReferenceIdeal.τ).loc Cert.ReferenceIdeal.main_arg11) = m ((c : Thread nD τ).loc main_arg11))
    (h12 : m' ((c.tc : Thread Cert.ReferenceIdeal.nD Cert.ReferenceIdeal.τ).loc Cert.ReferenceIdeal.main_arg12) = m ((c : Thread nD τ).loc main_arg12))
    (h13 : m' ((c.tc : Thread Cert.ReferenceIdeal.nD Cert.ReferenceIdeal.τ).loc Cert.ReferenceIdeal.main_arg13) = m ((c : Thread nD τ).loc main_arg13))
    (h14 : m' ((c.tc : Thread Cert.ReferenceIdeal.nD Cert.ReferenceIdeal.τ).loc Cert.ReferenceIdeal.main_arg14) = m ((c : Thread nD τ).loc main_arg14))
    (h15 : m' ((c.tc : Thread Cert.ReferenceIdeal.nD Cert.ReferenceIdeal.τ).loc Cert.ReferenceIdeal.main_arg15) = m ((c : Thread nD τ).loc main_arg15)) :
    Cert.ReferenceIdeal.Host.out1 m' c = (dat2 (V17 m ρ) c).arrAt 3 cfg2.N := by
  unfold Cert.ReferenceIdeal.Host.out1
  rw [hout0, h1, h2, h3, h10, h11, h12, h13, h14, h15]
  unfold Cert.ReferenceIdeal.Host.gatedEdges Cert.ReferenceIdeal.Host.edgeLab
  rw [srcCol_eq, edgeSrc_eq,
    wrap_edgeLab _ hB Cert.ReferenceIdeal.gather_S100000_S600000x1_S600000_n_0_n_n_0_1_1 rfl rfl rfl rfl]
  rw [Cert.KernelIdeal.Gated.arr2_3 (V17 m ρ) c, Cert.KernelIdeal.Host.v17_labels m ρ c, Cert.KernelIdeal.Host.v17_rows m ρ c,
    Cert.KernelIdeal.Host.v17_gate m ρ c, partial_of_out0 m ρ c, Cert.KernelIdeal.Host.v9_labels m ρ c]
  unfold Cert.KernelIdeal.Host.labels3 Cert.KernelIdeal.Host.edgeLabels3
  rw [clip_ids _ hB, take_eq _ hE]
  rw [reduceAdd_partSum shapeCasts_S100000_S20x1x5000 reducesTo_S20x32x128_S32x128_d0 h_S_
    Cert.ReferenceIdeal.Facts₀.scatter_S32x128_S100000x1_S100000x128_1_0_0_1_wf bcast_S_S32x128 bcast_S100000_S100000x1_0 _ hB]
  rw [gated_eq_mul_gather (A := 60) (T := 10000) (N := 600000) rfl 128 shapeCasts_S600000_S60x1x10000
    Cert.ReferenceIdeal.Facts₀.gather_S32x128_S600000x1_S600000x128_1_0_n_n_0_1_1128_wf bcast_S600000_S600000x1_0 _
    (edgeLab_lt _ hB gather_S100000_S600000x1_S600000_n_0_n_n_0_1_1 rfl rfl rfl rfl _)]
  rw [gate_eq, counts_eq]
  rfl

end Results

end Cert.Bridge

end
-- ==== Proof.lean ====
/-
  The certificate of a gated message-passing step over 100000 nodes in 32 graphs and 600000 edges.

  The kernel computes, in three tiled passes, the per-graph sums of the node rows, the node rows times their graph's
  gate, the per-graph sums of those products, and the edge rows times the gate of their source node's graph. A row
  finds its graph through a one-hot matrix of its label: contracted over a tile's rows it collects the rows of each
  label (a segment sum, finished by a sum over the tiles), contracted over the 32 labels it picks the label's row of
  the gate table (a look-up). The reference does the first by a scatter-add and the second by a gather. Over the
  extended reals the two agree whenever every label is in [0, 32) and every edge's source node is in [0, 100000): the
  products with 0 and 1 are exact, sums may be regrouped, and the clamp, the wrap of negative indices and the
  in-bounds mask are identities there; the means, the three-layer perceptron and the logistic between the passes are
  the same function of equal arguments. No finiteness of the float inputs is used.

  The modules: Spec (the one-hot sums, as finite sums), Laws (the look-up as a gather, the tile sums as a scatter-add),
  KernelOneHot, KernelGated and KernelSums (what each pass leaves in its output arrays, block by block), KernelHost
  (what the host operations between the passes leave), KernelIdealRun (the run with the result buffers kept),
  ReferenceHost (the reference's run with its results named), PreDecode (the index ranges read off the precondition),
  Bridge (the two results are equal), LibRowOps (a row gather and a row scatter-add read at an index).
-/
import proofs.«412414_j16080357556866_3_alg».proof.Defs
import proofs.«412414_j16080357556866_3_alg».proof.Proof.Gen.Kernel
import proofs.«412414_j16080357556866_3_alg».proof.Proof.Gen.Kernel.Frame
import proofs.«412414_j16080357556866_3_alg».proof.Proof.Gen.KernelIdeal
import proofs.«412414_j16080357556866_3_alg».proof.Proof.Gen.KernelIdeal.Frame
import proofs.«412414_j16080357556866_3_alg».proof.Proof.Gen.ReferenceIdeal
import proofs.«412414_j16080357556866_3_alg».proof.Proof.Gen.Pre_finite_inputs
import proofs.«412414_j16080357556866_3_alg».proof.Proof.Bridge
import Idealize.ShloMosaic.Adequacy
import Idealize.ShloMosaic.Init

noncomputable section

namespace Cert.Proof

open Idealize.ShloMosaic Idealize.SL.Sem

/-- The kernel as printed runs and leaves its arguments unchanged: the generated frame. -/
theorem frame_p : Cert.frame_Kernel := fun m ρ _ => Cert.Kernel.Gen.frame m ρ

/-- So does the kernel read over the extended reals. -/
theorem frame_pi : Cert.frame_KernelIdeal := fun m ρ _ => Cert.KernelIdeal.Gen.frame m ρ

/-- The reference runs and leaves its arguments unchanged: its run with the results dropped. -/
theorem frame_ri : Cert.frame_ReferenceIdeal := fun m ρ _ =>
  (θ_run Cert.ReferenceIdeal.defs _ _).mono (fun _ h c => (h c).2.2) (Cert.ReferenceIdeal.Host.run_named (F := Ideal) m ρ)

/-- The idealization rewrote no operation. -/
theorem preserves : Cert.preserves_Kernel_KernelIdeal := trivial

/-- From memories agreeing on the arguments, with labels and source nodes in range, both programs end with the same
    two arrays: the gated node rows and the gated edge rows. -/
theorem algebraic : Cert.algebraic_KernelIdeal_ReferenceIdeal := by
  intro m ρ m' ρ' hpre hagree
  refine ⟨fun c => (Cert.KernelIdeal.Gen.dat1 (Cert.KernelIdeal.Gen.V9 m ρ) c).arrAt 3 Cert.KernelIdeal.cfg1.N,
    fun c => (Cert.KernelIdeal.Gen.dat2 (Cert.KernelIdeal.Gen.V17 m ρ) c).arrAt 3 Cert.KernelIdeal.cfg2.N, ?_, ?_⟩
  · exact (θ_run Cert.KernelIdeal.defs _ _).mono
      (fun r h c => ⟨(h c).1.trans (Cert.KernelIdeal.Host.w18_out0 m ρ c),
        (h c).2.1.trans (Cert.KernelIdeal.Host.w18_out1 m ρ c), (h c).2.2⟩)
      (Cert.KernelIdeal.ResultRun.run_results (F := Ideal) m ρ)
  · refine (θ_run Cert.ReferenceIdeal.defs _ _).mono (fun r h c => ?_)
      (Cert.ReferenceIdeal.Host.run_named (F := Ideal) m' ρ')
    obtain ⟨a0, a1, a2, a3, a4, a5, a6, a7, a8, a9, a10, a11, a12, a13, a14, a15⟩ := hagree c
    have hB : ∀ n : Fin 100000, _ := fun n => Cert.Pre_finite_inputs.Decode.labels_lt _ _ _ _ _ _ _ _ _ _ _ _ _ _ _ _ (hpre c) n
    have hE : ∀ e : Fin 600000, _ := fun e => Cert.Pre_finite_inputs.Decode.sources_lt _ _ _ _ _ _ _ _ _ _ _ _ _ _ _ _ (hpre c) e
    have e0 := Cert.Bridge.result0 m ρ m' c hB a0 a3 a4 a5 a6 a7 a8 a9
    have e1 := Cert.Bridge.result1 m ρ m' c hB hE e0 a1 a2 a3 a10 a11 a12 a13 a14 a15
    exact ⟨(h c).1.trans e0, (h c).2.1.trans e1, (h c).2.2⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
